-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v192)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v192) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x40 .f32) (main_arg5 : FVec F S40 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S5000x64 : Shape := ⟨2, ![5000, 64]⟩
abbrev S5000 : Shape := ⟨1, ![5000]⟩
abbrev S5000x1 : Shape := ⟨2, ![5000, 1]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S1x64 : Shape := ⟨2, ![1, 64]⟩
abbrev S50000x1 : Shape := ⟨2, ![50000, 1]⟩
abbrev S50000x40 : Shape := ⟨2, ![50000, 40]⟩
abbrev S5000x40 : Shape := ⟨2, ![5000, 40]⟩
abbrev S800000x40 : Shape := ⟨2, ![800000, 40]⟩
abbrev S1x40 : Shape := ⟨2, ![1, 40]⟩

abbrev nBuf : Space → Nat
  | .hbm => 269
  | .vmem => 44
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S50000x64, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S800000x64, .f32⟩
  | 30 => ⟨S_, .f32⟩
  | 31 => ⟨S800000, .f32⟩
  | 32 => ⟨S_, .f32⟩
  | 33 => ⟨S800000, .f32⟩
  | 34 => ⟨S800000, .i1⟩
  | 35 => ⟨S_, .f32⟩
  | 36 => ⟨S_, .f32⟩
  | 37 => ⟨S800000, .f32⟩
  | 38 => ⟨S800000, .f32⟩
  | 39 => ⟨S_, .f32⟩
  | 40 => ⟨S50000, .f32⟩
  | 41 => ⟨S800000x1, .i32⟩
  | 42 => ⟨S50000, .f32⟩
  | 43 => ⟨S_, .f32⟩
  | 44 => ⟨S800000, .f32⟩
  | 45 => ⟨S800000, .i1⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S_, .f32⟩
  | 56 => ⟨S800000, .f32⟩
  | 57 => ⟨S800000, .f32⟩
  | 58 => ⟨S800000, .f32⟩
  | 59 => ⟨S_, .f32⟩
  | 60 => ⟨S_, .f32⟩
  | 61 => ⟨S800000, .f32⟩
  | 62 => ⟨S800000, .f32⟩
  | 63 => ⟨S_, .f32⟩
  | 64 => ⟨S800000, .f32⟩
  | 65 => ⟨S800000, .i1⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S50000, .f32⟩
  | 74 => ⟨S_, .f32⟩
  | 75 => ⟨S50000, .f32⟩
  | 76 => ⟨S50000, .f32⟩
  | 77 => ⟨S_, .f32⟩
  | 78 => ⟨S800000, .f32⟩
  | 79 => ⟨S800000, .i1⟩
  | 80 => ⟨S800000, .f32⟩
  | 81 => ⟨S_, .f32⟩
  | 82 => ⟨S_, .f32⟩
  | 83 => ⟨S800000, .f32⟩
  | 84 => ⟨S800000, .f32⟩
  | 85 => ⟨S50000, .f32⟩
  | 86 => ⟨S_, .f32⟩
  | 87 => ⟨S50000, .f32⟩
  | 88 => ⟨S800000x1, .i32⟩
  | 89 => ⟨S50000, .f32⟩
  | 90 => ⟨S50000, .f32⟩
  | 91 => ⟨S_, .f32⟩
  | 92 => ⟨S50000, .f32⟩
  | 93 => ⟨S50000, .f32⟩
  | 94 => ⟨S50000, .f32⟩
  | 95 => ⟨S_, .f32⟩
  | 96 => ⟨S50000, .f32⟩
  | 97 => ⟨S50000, .f32⟩
  | 98 => ⟨S50000x64, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S800000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S800000, .f32⟩
  | 119 => ⟨S800000x1, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S800000x64, .f32⟩
  | 1 => ⟨S800000x64, .f32⟩
  | 2 => ⟨S800000x64, .f32⟩
  | 3 => ⟨S_, .f32⟩
  | 4 => ⟨S50000x64, .f32⟩
  | 5 => ⟨S800000x1, .i32⟩
  | 6 => ⟨S50000x64, .f32⟩
  | 7 => ⟨S1x64, .f32⟩
  | 8 => ⟨S50000x1, .f32⟩
  | 9 => ⟨S50000x1, .f32⟩
  | 10 => ⟨S50000x64, .f32⟩
  | 11 => ⟨S50000x64, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S800000x64, .f32⟩
  | 31 => ⟨S_, .f32⟩
  | 32 => ⟨S800000, .f32⟩
  | 33 => ⟨S_, .f32⟩
  | 34 => ⟨S800000, .f32⟩
  | 35 => ⟨S800000, .i1⟩
  | 36 => ⟨S_, .f32⟩
  | 37 => ⟨S_, .f32⟩
  | 38 => ⟨S800000, .f32⟩
  | 39 => ⟨S800000, .f32⟩
  | 40 => ⟨S_, .f32⟩
  | 41 => ⟨S50000, .f32⟩
  | 42 => ⟨S800000x1, .i32⟩
  | 43 => ⟨S50000, .f32⟩
  | 44 => ⟨S_, .f32⟩
  | 45 => ⟨S800000, .f32⟩
  | 46 => ⟨S800000, .i1⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S_, .f32⟩
  | 57 => ⟨S800000, .f32⟩
  | 58 => ⟨S800000, .f32⟩
  | 59 => ⟨S800000, .f32⟩
  | 60 => ⟨S_, .f32⟩
  | 61 => ⟨S_, .f32⟩
  | 62 => ⟨S800000, .f32⟩
  | 63 => ⟨S800000, .f32⟩
  | 64 => ⟨S_, .f32⟩
  | 65 => ⟨S800000, .f32⟩
  | 66 => ⟨S800000, .i1⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S50000, .f32⟩
  | 75 => ⟨S_, .f32⟩
  | 76 => ⟨S50000, .f32⟩
  | 77 => ⟨S50000, .f32⟩
  | 78 => ⟨S_, .f32⟩
  | 79 => ⟨S800000, .f32⟩
  | 80 => ⟨S800000, .i1⟩
  | 81 => ⟨S800000, .f32⟩
  | 82 => ⟨S_, .f32⟩
  | 83 => ⟨S_, .f32⟩
  | 84 => ⟨S800000, .f32⟩
  | 85 => ⟨S800000, .f32⟩
  | 86 => ⟨S50000, .f32⟩
  | 87 => ⟨S_, .f32⟩
  | 88 => ⟨S50000, .f32⟩
  | 89 => ⟨S800000x1, .i32⟩
  | 90 => ⟨S50000, .f32⟩
  | 91 => ⟨S50000, .f32⟩
  | 92 => ⟨S_, .f32⟩
  | 93 => ⟨S50000, .f32⟩
  | 94 => ⟨S50000, .f32⟩
  | 95 => ⟨S50000, .f32⟩
  | 96 => ⟨S_, .f32⟩
  | 97 => ⟨S50000, .f32⟩
  | 98 => ⟨S50000, .f32⟩
  | 99 => ⟨S50000x40, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000, .f32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S800000, .f32⟩
  | 120 => ⟨S800000x1, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x64, .f32⟩

abbrev hbmTy0_2 (i : Nat) : BufTy := match i % 128 with
  | 0 => ⟨S800000x1, .i32⟩
  | 1 => ⟨S800000x40, .f32⟩
  | 2 => ⟨S800000x40, .f32⟩
  | 3 => ⟨S800000x40, .f32⟩
  | 4 => ⟨S_, .f32⟩
  | 5 => ⟨S50000x40, .f32⟩
  | 6 => ⟨S800000x1, .i32⟩
  | 7 => ⟨S50000x40, .f32⟩
  | 8 => ⟨S1x40, .f32⟩
  | 9 => ⟨S50000x1, .f32⟩
  | 10 => ⟨S50000x1, .f32⟩
  | 11 => ⟨S50000x40, .f32⟩
  | 12 => ⟨S50000x40, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x40, .f32⟩
  | .local _ .vmem, ⟨27, _⟩ => ⟨S5000x40, .f32⟩
  | .local _ .vmem, ⟨28, _⟩ => ⟨S5000x40, .f32⟩
  | .local _ .vmem, ⟨29, _⟩ => ⟨S5000x40, .f32⟩
  | .local _ .vmem, ⟨30, _⟩ => ⟨S5000x40, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x40, .f32⟩
  | .local _ .vmem, ⟨36, _⟩ => ⟨S5000x40, .f32⟩
  | .local _ .vmem, ⟨37, _⟩ => ⟨S1x40, .f32⟩
  | .local _ .vmem, ⟨38, _⟩ => ⟨S5000x40, .f32⟩
  | .local _ .vmem, ⟨39, _⟩ => ⟨S5000x40, .f32⟩
  | .local _ .vmem, ⟨40, _⟩ => ⟨S5000x40, .f32⟩
  | .local _ .vmem, ⟨41, _⟩ => ⟨S5000x40, .f32⟩
  | .local _ .vmem, ⟨42, _⟩ => ⟨S5000x40, .f32⟩
  | .local _ .vmem, ⟨43, _⟩ => ⟨S5000x40, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_call1_v0 : Ref sig .tc := ⟨.hbm, 60, rfl⟩
abbrev main_call1_v1 : Ref sig .tc := ⟨.hbm, 61, rfl⟩
abbrev main_v39 : Ref sig .tc := ⟨.hbm, 62, rfl⟩
abbrev main_cst_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_13 : Ref sig .tc := ⟨.hbm, 71, rfl⟩
abbrev main_v46 : Ref sig .tc := ⟨.hbm, 72, rfl⟩
abbrev main_v47 : Ref sig .tc := ⟨.hbm, 73, rfl⟩
abbrev main_cst_14 : Ref sig .tc := ⟨.hbm, 74, rfl⟩
abbrev main_v48 : Ref sig .tc := ⟨.hbm, 75, rfl⟩
abbrev main_v49 : Ref sig .tc := ⟨.hbm, 76, rfl⟩
abbrev main_cst_15 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_16 : Ref sig .tc := ⟨.hbm, 81, rfl⟩
abbrev main_call2_v0 : Ref sig .tc := ⟨.hbm, 82, rfl⟩
abbrev main_call2_v1 : Ref sig .tc := ⟨.hbm, 83, rfl⟩
abbrev main_v53 : Ref sig .tc := ⟨.hbm, 84, rfl⟩
abbrev main_v54 : Ref sig .tc := ⟨.hbm, 85, rfl⟩
abbrev main_cst_17 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_18 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_19 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_20 : Ref sig .tc := ⟨.hbm, 99, rfl⟩
abbrev main_v65 : Ref sig .tc := ⟨.hbm, 100, rfl⟩
abbrev main_v66 : Ref sig .tc := ⟨.hbm, 101, rfl⟩
abbrev main_c_21 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_22 : Ref sig .tc := ⟨.hbm, 109, rfl⟩
abbrev main_v73 : Ref sig .tc := ⟨.hbm, 110, rfl⟩
abbrev main_v74 : Ref sig .tc := ⟨.hbm, 111, rfl⟩
abbrev main_c_23 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_24 : Ref sig .tc := ⟨.hbm, 120, rfl⟩
abbrev main_v82 : Ref sig .tc := ⟨.hbm, 121, rfl⟩
abbrev main_v83 : Ref sig .tc := ⟨.hbm, 122, rfl⟩
abbrev main_c_25 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_26 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_27 : Ref sig .tc := ⟨.hbm, 140, rfl⟩
abbrev main_v99 : Ref sig .tc := ⟨.hbm, 141, rfl⟩
abbrev main_v100 : Ref sig .tc := ⟨.hbm, 142, rfl⟩
abbrev main_c_28 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_29 : Ref sig .tc := ⟨.hbm, 149, rfl⟩
abbrev main_v106 : Ref sig .tc := ⟨.hbm, 150, rfl⟩
abbrev main_v107 : Ref sig .tc := ⟨.hbm, 151, rfl⟩
abbrev main_c_30 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_31 : Ref sig .tc := ⟨.hbm, 159, rfl⟩
abbrev main_v114 : Ref sig .tc := ⟨.hbm, 160, rfl⟩
abbrev main_cst_32 : Ref sig .tc := ⟨.hbm, 161, rfl⟩
abbrev main_v115 : Ref sig .tc := ⟨.hbm, 162, rfl⟩
abbrev main_v116 : Ref sig .tc := ⟨.hbm, 163, rfl⟩
abbrev main_cst_33 : Ref sig .tc := ⟨.hbm, 164, rfl⟩
abbrev main_call3_v0 : Ref sig .tc := ⟨.hbm, 165, rfl⟩
abbrev main_call3_v1 : Ref sig .tc := ⟨.hbm, 166, rfl⟩
abbrev main_v117 : Ref sig .tc := ⟨.hbm, 167, rfl⟩
abbrev main_cst_34 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_35 : Ref sig .tc := ⟨.hbm, 172, rfl⟩
abbrev main_v121 : Ref sig .tc := ⟨.hbm, 173, rfl⟩
abbrev main_v122 : Ref sig .tc := ⟨.hbm, 174, rfl⟩
abbrev main_c_36 : Ref sig .tc := ⟨.hbm, 175, rfl⟩
abbrev main_v123 : Ref sig .tc := ⟨.hbm, 176, rfl⟩
abbrev main_v124 : Ref sig .tc := ⟨.hbm, 177, rfl⟩
abbrev main_c_37 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_38 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_cst_39 : Ref sig .tc := ⟨.hbm, 188, rfl⟩
abbrev main_call4_v0 : Ref sig .tc := ⟨.hbm, 189, rfl⟩
abbrev main_call4_v1 : Ref sig .tc := ⟨.hbm, 190, rfl⟩
abbrev main_v133 : Ref sig .tc := ⟨.hbm, 191, rfl⟩
abbrev main_cst_40 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_41 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_cst_42 : Ref sig .tc := ⟨.hbm, 200, rfl⟩
abbrev main_v140 : Ref sig .tc := ⟨.hbm, 201, rfl⟩
abbrev main_v141 : Ref sig .tc := ⟨.hbm, 202, rfl⟩
abbrev main_cst_43 : Ref sig .tc := ⟨.hbm, 203, rfl⟩
abbrev main_v142 : Ref sig .tc := ⟨.hbm, 204, rfl⟩
abbrev main_v143 : Ref sig .tc := ⟨.hbm, 205, rfl⟩
abbrev main_cst_44 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_cst_45 : Ref sig .tc := ⟨.hbm, 210, rfl⟩
abbrev main_call5_v0 : Ref sig .tc := ⟨.hbm, 211, rfl⟩
abbrev main_call5_v1 : Ref sig .tc := ⟨.hbm, 212, rfl⟩
abbrev main_v147 : Ref sig .tc := ⟨.hbm, 213, rfl⟩
abbrev main_v148 : Ref sig .tc := ⟨.hbm, 214, rfl⟩
abbrev main_cst_46 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_cst_47 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_cst_48 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_c_49 : Ref sig .tc := ⟨.hbm, 228, rfl⟩
abbrev main_v159 : Ref sig .tc := ⟨.hbm, 229, rfl⟩
abbrev main_v160 : Ref sig .tc := ⟨.hbm, 230, rfl⟩
abbrev main_c_50 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_c_51 : Ref sig .tc := ⟨.hbm, 238, rfl⟩
abbrev main_v167 : Ref sig .tc := ⟨.hbm, 239, rfl⟩
abbrev main_v168 : Ref sig .tc := ⟨.hbm, 240, rfl⟩
abbrev main_c_52 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_c_53 : Ref sig .tc := ⟨.hbm, 249, rfl⟩
abbrev main_v176 : Ref sig .tc := ⟨.hbm, 250, rfl⟩
abbrev main_v177 : Ref sig .tc := ⟨.hbm, 251, rfl⟩
abbrev main_c_54 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_cst_55 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc5_stg3_0 : Ref sig .tc := ⟨.vmem, 35, rfl⟩
abbrev cc5_stg3_1 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc5_sem3_0 : DmaSem sig := 35
abbrev cc5_sem3_1 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem1_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x40 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x40 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x40 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x40 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x64_S5000x64_0_0 : ∀ a, (![0, 0] : Fin 2 → Nat) a + S5000x64.size a ≤ S5000x64.size a
  h_S5000x64 : 0 < S5000x64.numel
  reduces_S5000x64_S5000 : S5000x64.Reduces [1] S5000
  shapeCasts_S5000_S5000x1 : S5000.ShapeCasts S5000x1
  broadcasts_S5000x1_S5000x64 : S5000x1.Broadcasts S5000x64
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S800000_d1 : S800000x64.ReducesTo [1] S800000
  h_S_ : 0 < S_.numel
  bcast_S_S50000 : S_.BroadcastsInDim S50000 (![] : Fin 0 → Fin S50000.rank)
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S50000_S50000x1 : S50000.ShapeCasts S50000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S5000x1_S5000x40 : S5000x1.Broadcasts S5000x40
  broadcasts_S1x40_S5000x40 : S1x40.Broadcasts S5000x40
  reduces_S5000x40_S5000 : S5000x40.Reduces [1] S5000
  gather_S50000x64_S800000x1_S800000x64_1_0_n_n_0_1_164_wf : GatherDims.WF S50000x64 S800000x1 S800000x64 [1] [0] [] [0] [] 1 ![1, 64]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  scatter_S50000x64_S800000x1_S800000x64_1_0_0_1_wf : ScatterDims.WF S50000x64 S800000x1 S800000x64 [1] [0] [0] 1
  dot_S5000x64_S64x40_S5000x40_1_0_0_1_n_n_wf : DotDims.WF S5000x64 S64x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S50000x40.size a
  hwx4_2 : ∀ i : grid4.Coords, EltTy.bits .f32 = 32 ∨ (Rect.block (s := S50000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x40.size a ≤ S50000x40.size a
  hwx5_3 : ∀ i : grid5.Coords, EltTy.bits .f32 = 32 ∨ (Rect.block (s := S50000x40) S5000x40.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x40.size a ≤ S1x40.size a
  hwx5_4 : ∀ i : grid5.Coords, EltTy.bits .f32 = 32 ∨ (Rect.block (s := S1x40) S1x40.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x40.size a ≤ S50000x40.size a
  hwx5_5 : ∀ i : grid5.Coords, EltTy.bits .f32 = 32 ∨ (Rect.block (s := S50000x40) S5000x40.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x40.size a ≤ S50000x40.size a
  hwx6_0 : ∀ i : grid6.Coords, EltTy.bits .f32 = 32 ∨ (Rect.block (s := S50000x40) S5000x40.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x40.size a ≤ S50000x40.size a
  hwx6_1 : ∀ i : grid6.Coords, EltTy.bits .f32 = 32 ∨ (Rect.block (s := S50000x40) S5000x40.size (cc6_transform_1 i) (hinb6_1 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v93) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v96) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v94) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v97) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v97) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v98) S5000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v97) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v158) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v187) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v189) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v190) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v158) S5000x40.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v188) S1x40.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v191) S5000x40.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v191) S5000x40.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v192) S5000x40.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S50000x1 : Shape := ⟨2, ![50000, 1]⟩
abbrev S800000x1 : Shape := ⟨2, ![800000, 1]⟩
abbrev S800000x64 : Shape := ⟨2, ![800000, 64]⟩
abbrev S1x64 : Shape := ⟨2, ![1, 64]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 314
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S50000x64, .f32⟩
  | 11 => ⟨S_, .f32⟩
  | 12 => ⟨S50000, .f32⟩
  | 13 => ⟨S50000x1, .f32⟩
  | 14 => ⟨S50000x1, .f32⟩
  | 15 => ⟨S_, .f32⟩
  | 16 => ⟨S50000x1, .f32⟩
  | 17 => ⟨S50000x1, .f32⟩
  | 18 => ⟨S50000x64, .f32⟩
  | 19 => ⟨S50000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S800000x64, .f32⟩
  | 39 => ⟨S_, .f32⟩
  | 40 => ⟨S800000, .f32⟩
  | 41 => ⟨S_, .f32⟩
  | 42 => ⟨S800000, .f32⟩
  | 43 => ⟨S800000, .i1⟩
  | 44 => ⟨S_, .f32⟩
  | 45 => ⟨S_, .f32⟩
  | 46 => ⟨S800000, .f32⟩
  | 47 => ⟨S800000, .f32⟩
  | 48 => ⟨S_, .f32⟩
  | 49 => ⟨S50000, .f32⟩
  | 50 => ⟨S800000x1, .i32⟩
  | 51 => ⟨S50000, .f32⟩
  | 52 => ⟨S_, .f32⟩
  | 53 => ⟨S800000, .f32⟩
  | 54 => ⟨S800000, .i1⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S_, .f32⟩
  | 65 => ⟨S800000, .f32⟩
  | 66 => ⟨S800000, .f32⟩
  | 67 => ⟨S800000, .f32⟩
  | 68 => ⟨S_, .f32⟩
  | 69 => ⟨S_, .f32⟩
  | 70 => ⟨S800000, .f32⟩
  | 71 => ⟨S800000, .f32⟩
  | 72 => ⟨S_, .f32⟩
  | 73 => ⟨S800000, .f32⟩
  | 74 => ⟨S800000, .i1⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S_, .f32⟩
  | 84 => ⟨S50000, .f32⟩
  | 85 => ⟨S50000, .f32⟩
  | 86 => ⟨S_, .f32⟩
  | 87 => ⟨S800000, .f32⟩
  | 88 => ⟨S800000, .i1⟩
  | 89 => ⟨S800000, .f32⟩
  | 90 => ⟨S_, .f32⟩
  | 91 => ⟨S_, .f32⟩
  | 92 => ⟨S800000, .f32⟩
  | 93 => ⟨S800000, .f32⟩
  | 94 => ⟨S50000, .f32⟩
  | 95 => ⟨S_, .f32⟩
  | 96 => ⟨S50000, .f32⟩
  | 97 => ⟨S800000x1, .i32⟩
  | 98 => ⟨S50000, .f32⟩
  | 99 => ⟨S50000, .f32⟩
  | 100 => ⟨S_, .f32⟩
  | 101 => ⟨S50000, .f32⟩
  | 102 => ⟨S50000, .f32⟩
  | 103 => ⟨S50000, .f32⟩
  | 104 => ⟨S_, .f32⟩
  | 105 => ⟨S50000, .f32⟩
  | 106 => ⟨S50000, .f32⟩
  | 107 => ⟨S50000x64, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000, .f32⟩
  | 117 => ⟨S800000, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000, .f32⟩
  | 127 => ⟨S800000, .f32⟩
  | _ => ⟨S50000x64, .f32⟩

abbrev hbmTy0_1 (i : Nat) : BufTy := match i % 128 with
  | 0 => ⟨S800000x1, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x64, .f32⟩
  | 10 => ⟨S800000x64, .f32⟩
  | 11 => ⟨S800000x64, .f32⟩
  | 12 => ⟨S_, .f32⟩
  | 13 => ⟨S50000x64, .f32⟩
  | 14 => ⟨S800000x1, .i32⟩
  | 15 => ⟨S50000x64, .f32⟩
  | 16 => ⟨S50000, .f32⟩
  | 17 => ⟨S50000, .f32⟩
  | 18 => ⟨S50000x1, .f32⟩
  | 19 => ⟨S50000x64, .f32⟩
  | 20 => ⟨S50000x64, .f32⟩
  | 21 => ⟨S50000x64, .f32⟩
  | 22 => ⟨S1x64, .f32⟩
  | 23 => ⟨S50000x64, .f32⟩
  | 24 => ⟨S50000x64, .f32⟩
  | 25 => ⟨S_, .f32⟩
  | 26 => ⟨S50000x64, .f32⟩
  | 27 => ⟨S50000x64, .f32⟩
  | 28 => ⟨S50000x64, .f32⟩
  | 29 => ⟨S_, .f32⟩
  | 30 => ⟨S50000, .f32⟩
  | 31 => ⟨S50000x1, .f32⟩
  | 32 => ⟨S50000x1, .f32⟩
  | 33 => ⟨S_, .f32⟩
  | 34 => ⟨S50000x1, .f32⟩
  | 35 => ⟨S50000x1, .f32⟩
  | 36 => ⟨S50000x64, .f32⟩
  | 37 => ⟨S50000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S800000x64, .f32⟩
  | 57 => ⟨S_, .f32⟩
  | 58 => ⟨S800000, .f32⟩
  | 59 => ⟨S_, .f32⟩
  | 60 => ⟨S800000, .f32⟩
  | 61 => ⟨S800000, .i1⟩
  | 62 => ⟨S_, .f32⟩
  | 63 => ⟨S_, .f32⟩
  | 64 => ⟨S800000, .f32⟩
  | 65 => ⟨S800000, .f32⟩
  | 66 => ⟨S_, .f32⟩
  | 67 => ⟨S50000, .f32⟩
  | 68 => ⟨S800000x1, .i32⟩
  | 69 => ⟨S50000, .f32⟩
  | 70 => ⟨S_, .f32⟩
  | 71 => ⟨S800000, .f32⟩
  | 72 => ⟨S800000, .i1⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .f32⟩
  | 83 => ⟨S800000, .f32⟩
  | 84 => ⟨S800000, .f32⟩
  | 85 => ⟨S800000, .f32⟩
  | 86 => ⟨S_, .f32⟩
  | 87 => ⟨S_, .f32⟩
  | 88 => ⟨S800000, .f32⟩
  | 89 => ⟨S800000, .f32⟩
  | 90 => ⟨S_, .f32⟩
  | 91 => ⟨S800000, .f32⟩
  | 92 => ⟨S800000, .i1⟩
  | 93 => ⟨S800000, .f32⟩
  | 94 => ⟨S_, .f32⟩
  | 95 => ⟨S50000, .f32⟩
  | 96 => ⟨S800000x1, .i32⟩
  | 97 => ⟨S50000, .f32⟩
  | 98 => ⟨S_, .f32⟩
  | 99 => ⟨S50000, .f32⟩
  | 100 => ⟨S50000, .f32⟩
  | 101 => ⟨S_, .f32⟩
  | 102 => ⟨S50000, .f32⟩
  | 103 => ⟨S50000, .f32⟩
  | 104 => ⟨S_, .f32⟩
  | 105 => ⟨S800000, .f32⟩
  | 106 => ⟨S800000, .i1⟩
  | 107 => ⟨S800000, .f32⟩
  | 108 => ⟨S_, .f32⟩
  | 109 => ⟨S_, .f32⟩
  | 110 => ⟨S800000, .f32⟩
  | 111 => ⟨S800000, .f32⟩
  | 112 => ⟨S50000, .f32⟩
  | 113 => ⟨S_, .f32⟩
  | 114 => ⟨S50000, .f32⟩
  | 115 => ⟨S800000x1, .i32⟩
  | 116 => ⟨S50000, .f32⟩
  | 117 => ⟨S50000, .f32⟩
  | 118 => ⟨S_, .f32⟩
  | 119 => ⟨S50000, .f32⟩
  | 120 => ⟨S50000, .f32⟩
  | 121 => ⟨S50000, .f32⟩
  | 122 => ⟨S_, .f32⟩
  | 123 => ⟨S50000, .f32⟩
  | 124 => ⟨S50000, .f32⟩
  | 125 => ⟨S50000x40, .f32⟩
  | 126 => ⟨S_, .i32⟩
  | 127 => ⟨S800000, .i32⟩
  | _ => ⟨S50000x64, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S800000, .f32⟩
  | 18 => ⟨S800000x1, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x40, .f32⟩
  | 28 => ⟨S800000x40, .f32⟩
  | 29 => ⟨S800000x40, .f32⟩
  | 30 => ⟨S_, .f32⟩
  | 31 => ⟨S50000x40, .f32⟩
  | 32 => ⟨S800000x1, .i32⟩
  | 33 => ⟨S50000x40, .f32⟩
  | 34 => ⟨S50000, .f32⟩
  | 35 => ⟨S50000, .f32⟩
  | 36 => ⟨S50000x1, .f32⟩
  | 37 => ⟨S50000x40, .f32⟩
  | 38 => ⟨S50000x40, .f32⟩
  | 39 => ⟨S50000x40, .f32⟩
  | 40 => ⟨S1x40, .f32⟩
  | 41 => ⟨S50000x40, .f32⟩
  | 42 => ⟨S50000x40, .f32⟩
  | 43 => ⟨S_, .f32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x40, .f32⟩
  | 50 => ⟨S50000x40, .f32⟩
  | 51 => ⟨S50000x40, .f32⟩
  | 52 => ⟨S_, .f32⟩
  | 53 => ⟨S50000, .f32⟩
  | 54 => ⟨S50000x1, .f32⟩
  | 55 => ⟨S50000x1, .f32⟩
  | 56 => ⟨S50000x40, .f32⟩
  | 57 => ⟨S50000x40, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_call0_v0 : Ref sig .tc := ⟨.hbm, 45, rfl⟩
abbrev main_call0_v1 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_call1_v0 : Ref sig .tc := ⟨.hbm, 69, rfl⟩
abbrev main_call1_v1 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_14 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_15 : Ref sig .tc := ⟨.hbm, 80, rfl⟩
abbrev main_v53 : Ref sig .tc := ⟨.hbm, 81, rfl⟩
abbrev main_v54 : Ref sig .tc := ⟨.hbm, 82, rfl⟩
abbrev main_cst_16 : Ref sig .tc := ⟨.hbm, 83, rfl⟩
abbrev main_v55 : Ref sig .tc := ⟨.hbm, 84, rfl⟩
abbrev main_v56 : Ref sig .tc := ⟨.hbm, 85, rfl⟩
abbrev main_cst_17 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_18 : Ref sig .tc := ⟨.hbm, 90, rfl⟩
abbrev main_call2_v0 : Ref sig .tc := ⟨.hbm, 91, rfl⟩
abbrev main_call2_v1 : Ref sig .tc := ⟨.hbm, 92, rfl⟩
abbrev main_v60 : Ref sig .tc := ⟨.hbm, 93, rfl⟩
abbrev main_v61 : Ref sig .tc := ⟨.hbm, 94, rfl⟩
abbrev main_cst_19 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_20 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_21 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_22 : Ref sig .tc := ⟨.hbm, 108, rfl⟩
abbrev main_v72 : Ref sig .tc := ⟨.hbm, 109, rfl⟩
abbrev main_v73 : Ref sig .tc := ⟨.hbm, 110, rfl⟩
abbrev main_c_23 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_24 : Ref sig .tc := ⟨.hbm, 118, rfl⟩
abbrev main_v80 : Ref sig .tc := ⟨.hbm, 119, rfl⟩
abbrev main_v81 : Ref sig .tc := ⟨.hbm, 120, rfl⟩
abbrev main_c_25 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_26 : Ref sig .tc := ⟨.hbm, 129, rfl⟩
abbrev main_v89 : Ref sig .tc := ⟨.hbm, 130, rfl⟩
abbrev main_v90 : Ref sig .tc := ⟨.hbm, 131, rfl⟩
abbrev main_c_27 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_28 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_call3_cst : Ref sig .tc := ⟨.hbm, 153, rfl⟩
abbrev main_call3_v0 : Ref sig .tc := ⟨.hbm, 154, rfl⟩
abbrev main_v110 : Ref sig .tc := ⟨.hbm, 155, rfl⟩
abbrev main_v111 : Ref sig .tc := ⟨.hbm, 156, rfl⟩
abbrev main_cst_29 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_30 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_31 : Ref sig .tc := ⟨.hbm, 166, rfl⟩
abbrev main_v119 : Ref sig .tc := ⟨.hbm, 167, rfl⟩
abbrev main_v120 : Ref sig .tc := ⟨.hbm, 168, rfl⟩
abbrev main_c_32 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_c_33 : Ref sig .tc := ⟨.hbm, 175, rfl⟩
abbrev main_v126 : Ref sig .tc := ⟨.hbm, 176, rfl⟩
abbrev main_v127 : Ref sig .tc := ⟨.hbm, 177, rfl⟩
abbrev main_c_34 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_35 : Ref sig .tc := ⟨.hbm, 185, rfl⟩
abbrev main_v134 : Ref sig .tc := ⟨.hbm, 186, rfl⟩
abbrev main_cst_36 : Ref sig .tc := ⟨.hbm, 187, rfl⟩
abbrev main_v135 : Ref sig .tc := ⟨.hbm, 188, rfl⟩
abbrev main_v136 : Ref sig .tc := ⟨.hbm, 189, rfl⟩
abbrev main_cst_37 : Ref sig .tc := ⟨.hbm, 190, rfl⟩
abbrev main_call4_v0 : Ref sig .tc := ⟨.hbm, 191, rfl⟩
abbrev main_call4_v1 : Ref sig .tc := ⟨.hbm, 192, rfl⟩
abbrev main_v137 : Ref sig .tc := ⟨.hbm, 193, rfl⟩
abbrev main_cst_38 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_39 : Ref sig .tc := ⟨.hbm, 198, rfl⟩
abbrev main_v141 : Ref sig .tc := ⟨.hbm, 199, rfl⟩
abbrev main_v142 : Ref sig .tc := ⟨.hbm, 200, rfl⟩
abbrev main_c_40 : Ref sig .tc := ⟨.hbm, 201, rfl⟩
abbrev main_v143 : Ref sig .tc := ⟨.hbm, 202, rfl⟩
abbrev main_v144 : Ref sig .tc := ⟨.hbm, 203, rfl⟩
abbrev main_c_41 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_42 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_43 : Ref sig .tc := ⟨.hbm, 214, rfl⟩
abbrev main_call5_v0 : Ref sig .tc := ⟨.hbm, 215, rfl⟩
abbrev main_call5_v1 : Ref sig .tc := ⟨.hbm, 216, rfl⟩
abbrev main_v153 : Ref sig .tc := ⟨.hbm, 217, rfl⟩
abbrev main_cst_44 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_cst_45 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_cst_46 : Ref sig .tc := ⟨.hbm, 226, rfl⟩
abbrev main_v160 : Ref sig .tc := ⟨.hbm, 227, rfl⟩
abbrev main_v161 : Ref sig .tc := ⟨.hbm, 228, rfl⟩
abbrev main_cst_47 : Ref sig .tc := ⟨.hbm, 229, rfl⟩
abbrev main_v162 : Ref sig .tc := ⟨.hbm, 230, rfl⟩
abbrev main_v163 : Ref sig .tc := ⟨.hbm, 231, rfl⟩
abbrev main_cst_48 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_cst_49 : Ref sig .tc := ⟨.hbm, 236, rfl⟩
abbrev main_call6_v0 : Ref sig .tc := ⟨.hbm, 237, rfl⟩
abbrev main_call6_v1 : Ref sig .tc := ⟨.hbm, 238, rfl⟩
abbrev main_v167 : Ref sig .tc := ⟨.hbm, 239, rfl⟩
abbrev main_v168 : Ref sig .tc := ⟨.hbm, 240, rfl⟩
abbrev main_cst_50 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_cst_51 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_cst_52 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_c_53 : Ref sig .tc := ⟨.hbm, 254, rfl⟩
abbrev main_v179 : Ref sig .tc := ⟨.hbm, 255, rfl⟩
abbrev main_v180 : Ref sig .tc := ⟨.hbm, 256, rfl⟩
abbrev main_c_54 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_c_55 : Ref sig .tc := ⟨.hbm, 264, rfl⟩
abbrev main_v187 : Ref sig .tc := ⟨.hbm, 265, rfl⟩
abbrev main_v188 : Ref sig .tc := ⟨.hbm, 266, rfl⟩
abbrev main_c_56 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_c_57 : Ref sig .tc := ⟨.hbm, 275, rfl⟩
abbrev main_v196 : Ref sig .tc := ⟨.hbm, 276, rfl⟩
abbrev main_v197 : Ref sig .tc := ⟨.hbm, 277, rfl⟩
abbrev main_c_58 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_cst_59 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_call7_cst : Ref sig .tc := ⟨.hbm, 299, rfl⟩
abbrev main_call7_v0 : Ref sig .tc := ⟨.hbm, 300, rfl⟩
abbrev main_call7_cst_0 : Ref sig .tc := ⟨.hbm, 301, rfl⟩
abbrev main_call7_v1 : Ref sig .tc := ⟨.hbm, 302, rfl⟩
abbrev main_call7_v2 : Ref sig .tc := ⟨.hbm, 303, rfl⟩
abbrev main_call7_v3 : Ref sig .tc := ⟨.hbm, 304, rfl⟩
abbrev main_call7_v4 : Ref sig .tc := ⟨.hbm, 305, rfl⟩
abbrev main_call7_v5 : Ref sig .tc := ⟨.hbm, 306, rfl⟩
abbrev main_call7_v6 : Ref sig .tc := ⟨.hbm, 307, rfl⟩
abbrev main_call7_cst_1 : Ref sig .tc := ⟨.hbm, 308, rfl⟩
abbrev main_call7_v7 : Ref sig .tc := ⟨.hbm, 309, rfl⟩
abbrev main_call7_v8 : Ref sig .tc := ⟨.hbm, 310, rfl⟩
abbrev main_call7_v9 : Ref sig .tc := ⟨.hbm, 311, rfl⟩
abbrev main_call7_v10 : Ref sig .tc := ⟨.hbm, 312, rfl⟩
abbrev main_v217 : Ref sig .tc := ⟨.hbm, 313, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x64_S800000_d1 : S800000x64.ReducesTo [1] S800000
  bcast_S_S50000 : S_.BroadcastsInDim S50000 (![] : Fin 0 → Fin S50000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  gather_S50000x64_S800000x1_S800000x64_1_0_n_n_0_1_164_wf : GatherDims.WF S50000x64 S800000x1 S800000x64 [1] [0] [] [0] [] 1 ![1, 64]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  scatter_S50000x64_S800000x1_S800000x64_1_0_0_1_wf : ScatterDims.WF S50000x64 S800000x1 S800000x64 [1] [0] [0] 1
  dot_S50000x64_S64x40_S50000x40_1_0_0_1_n_n_wf : DotDims.WF S50000x64 S64x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.Spec.lean ====
/-
  The dense, node-tiled stages of the two-layer graph network, each as ONE function of whole arrays, written with the
  host operations the reference applies: row normalisation, the two feature projections, the layer outputs (with
  and without the lower bound at zero) and the row-wise log-softmax. Both programs are compared through these.
-/
import proofs.«408244_j28587302322281_3_alg».proof.Proof.Gen.ReferenceIdeal

noncomputable section

namespace Cert.Spec

open Cert.ReferenceIdeal Cert.ReferenceIdeal.Gen Idealize.ShloMosaic

variable {F : FTy → Type} [FloatOps F]

/-- Every row of `x` divided by the larger of its Euclidean length and the literal `1e-12` (as f32): the square root of the row's sum of squares, kept as a column, bounded below, spread back over the row's 64 entries. -/
def normalize (x : (⟨S50000x64, .f32⟩ : BufTy).Contents (Elt F)) :
    (⟨S50000x64, .f32⟩ : BufTy).Contents (Elt F) :=
  (Host.divf x ((broadcastInDim S50000x64 ![0, 1] bcast_S50000x1_S50000x64_0_1) (maximumf (Host.sqrt ((broadcastInDim S50000x1 ![0] bcast_S50000_S50000x1_0) ((fun x v => Host.reduceAdd x v reducesTo_S50000x64_S50000_d1 h_S_) (mulf x x) (constant S_ .f32 0x00000000#32)))) ((broadcastInDim S50000x1 ![] bcast_S_S50000x1) (constant S_ .f32 0x2B8CBCCC#32)))))

/-- The matrix product `x · w` of a 50000×64 array with a 64×64 one, contracting `x`'s columns with `w`'s rows. -/
def proj64 (x : (⟨S50000x64, .f32⟩ : BufTy).Contents (Elt F)) (w : (⟨S64x64, .f32⟩ : BufTy).Contents (Elt F)) :
    (⟨S50000x64, .f32⟩ : BufTy).Contents (Elt F) :=
  ((fun l r => Host.dotGeneral dot_S50000x64_S64x64_S50000x64_1_0_0_1_n_n none l r) x w)

/-- The layer's output before normalisation: the aggregated messages `agg`, plus each node's own projected features `h` scaled by its self weight times the square of its inverse root degree (`ws · dinv · dinv`, one number per node, spread over the node's row), plus the bias `b` spread over the rows, and the result bounded below by zero. -/
def finalizeRelu (agg : (⟨S50000x64, .f32⟩ : BufTy).Contents (Elt F)) (ws : (⟨S50000, .f32⟩ : BufTy).Contents (Elt F)) (dinv : (⟨S50000, .f32⟩ : BufTy).Contents (Elt F)) (h : (⟨S50000x64, .f32⟩ : BufTy).Contents (Elt F)) (b : (⟨S64, .f32⟩ : BufTy).Contents (Elt F)) :
    (⟨S50000x64, .f32⟩ : BufTy).Contents (Elt F) :=
  (maximumf (addf (addf agg (mulf ((broadcastInDim S50000x64 ![0, 1] bcast_S50000x1_S50000x64_0_1) ((broadcastInDim S50000x1 ![0] bcast_S50000_S50000x1_0) (mulf (mulf ws dinv) dinv))) h)) ((broadcastInDim S50000x64 ![0, 1] bcast_S1x64_S50000x64_0_1) ((broadcastInDim S1x64 ![1] bcast_S64_S1x64_1) b))) ((broadcastInDim S50000x64 ![] bcast_S_S50000x64) (constant S_ .f32 0x00000000#32)))

/-- The matrix product `x · w` of a 50000×64 array with a 64×40 one. -/
def proj40 (x : (⟨S50000x64, .f32⟩ : BufTy).Contents (Elt F)) (w : (⟨S64x40, .f32⟩ : BufTy).Contents (Elt F)) :
    (⟨S50000x40, .f32⟩ : BufTy).Contents (Elt F) :=
  ((fun l r => Host.dotGeneral dot_S50000x64_S64x40_S50000x40_1_0_0_1_n_n none l r) x w)

/-- The second layer's output: aggregated messages plus the self term `(ws · dinv · dinv) · h` plus the bias, with no lower bound. -/
def finalize40 (agg : (⟨S50000x40, .f32⟩ : BufTy).Contents (Elt F)) (ws : (⟨S50000, .f32⟩ : BufTy).Contents (Elt F)) (dinv : (⟨S50000, .f32⟩ : BufTy).Contents (Elt F)) (h : (⟨S50000x40, .f32⟩ : BufTy).Contents (Elt F)) (b : (⟨S40, .f32⟩ : BufTy).Contents (Elt F)) :
    (⟨S50000x40, .f32⟩ : BufTy).Contents (Elt F) :=
  (addf (addf agg (mulf ((broadcastInDim S50000x40 ![0, 1] bcast_S50000x1_S50000x40_0_1) ((broadcastInDim S50000x1 ![0] bcast_S50000_S50000x1_0) (mulf (mulf ws dinv) dinv))) h)) ((broadcastInDim S50000x40 ![0, 1] bcast_S1x40_S50000x40_0_1) ((broadcastInDim S1x40 ![1] bcast_S40_S1x40_1) b)))

/-- Row-wise log-softmax: each row shifted by its maximum (the maximum taken from `-∞` up), minus the logarithm of the row's sum of exponentials of the shifted entries. -/
def logSoftmax (x : (⟨S50000x40, .f32⟩ : BufTy).Contents (Elt F)) :
    (⟨S50000x40, .f32⟩ : BufTy).Contents (Elt F) :=
  (subf (subf x ((broadcastInDim S50000x40 ![0, 1] bcast_S50000x1_S50000x40_0_1) ((broadcastInDim S50000x1 ![0] bcast_S50000_S50000x1_0) (maximumf ((broadcastInDim S50000 ![] bcast_S_S50000) (constant S_ .f32 0xFF800000#32)) ((fun x v => Host.reduce FloatOps.maximumf x v reducesTo_S50000x40_S50000_d1 h_S_) x (constant S_ .f32 0xFF800000#32)))))) ((broadcastInDim S50000x40 ![0, 1] bcast_S50000x1_S50000x40_0_1) (Host.log ((broadcastInDim S50000x1 ![0] bcast_S50000_S50000x1_0) ((fun x v => Host.reduceAdd x v reducesTo_S50000x40_S50000_d1 h_S_) (Host.exp (subf x ((broadcastInDim S50000x40 ![0, 1] bcast_S50000x1_S50000x40_0_1) ((broadcastInDim S50000x1 ![0] bcast_S50000_S50000x1_0) (maximumf ((broadcastInDim S50000 ![] bcast_S_S50000) (constant S_ .f32 0xFF800000#32)) ((fun x v => Host.reduce FloatOps.maximumf x v reducesTo_S50000x40_S50000_d1 h_S_) x (constant S_ .f32 0xFF800000#32))))))) (constant S_ .f32 0x00000000#32))))))

end Cert.Spec

end
-- ==== Proof.RegionNormalize.lean ====
/-
  Row normalisation, ten row blocks at a time: after the pipelined call the output array holds every row of the input divided by the larger of its length and 1e-12.
-/
import proofs.«408244_j28587302322281_3_alg».proof.Proof.Gen.KernelIdeal.Frame
import proofs.«408244_j28587302322281_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of the result: x(r, q) / max(√(Σ_k x(r, k)²), 1e-12)

Entry (r, q) of the normalised array depends on row r of the input only. Both the block arithmetic and the
whole-array arithmetic are read at an entry as the same quotient over the row's divisor. -/

/-- The divisor of row `r`: the larger of the row's Euclidean length √(Σ_k x(r, k)²) and the constant 1e-12. -/
def rowDen {n : Nat} (x : (⟨2, ![n, 64]⟩ : Shape).Idx → EReal) (r : Fin n) : EReal :=
  max (Ideal.sqrt (∑ k : Fin 64, x (ix2 r k) * x (ix2 r k))) (Ideal.ofBits .f32 0x2B8CBCCC#32)

/-! ### The block arithmetic -/

/-- The sum over the 64 lanes of a 5000×64 block, at row `p`: the sum of that row's entries. -/
theorem laneSum_apply (v : FVec Ideal S5000x64 .f32) (p : Fin 5000) :
    multiReduction (F := Ideal) .add [1] S5000 v 0x00000000#32 Gen.reduces_S5000x64_S5000 (.inl rfl) rfl (ix1 p)
      = ∑ k : Fin 64, v (ix2 p k) := by
  refine (Ideal.multiReduction_add_single v _ Gen.reduces_S5000x64_S5000 _ _ (ix1 p)).trans ?_
  refine Finset.sum_congr rfl fun k _ => congrArg v ?_
  funext a; apply Fin.ext
  match a with
  | ⟨0, _⟩ => rfl
  | ⟨1, _⟩ => rfl

/-- The 5000 row values laid out as a 5000×1 column: entry (p, 0) is row `p`'s value (same row-major position). -/
theorem castCol_apply {α : Type} (v : S5000.Idx → α) (p : Fin 5000) :
    shapeCast S5000x1 v Gen.shapeCasts_S5000_S5000x1 (ix2 p (0 : Fin 1)) = v (ix1 p) :=
  shapeCast_apply v _ _ (ix1 p) (by rw [Shape.rowMajor_val_one, Shape.rowMajor_val_two]; show p.val = p.val * 1 + 0; omega)

/-- A 5000×1 column spread over the 64 lanes: entry (p, q) is the column's entry of row `p`. -/
theorem spreadCol_apply {α : Type} (v : S5000x1.Idx → α) (p : Fin 5000) (q : Fin 64) :
    broadcastTo S5000x64 v Gen.broadcasts_S5000x1_S5000x64 (ix2 p q) = v (ix2 p (0 : Fin 1)) :=
  broadcastTo_apply v _ _ (ix2 p (0 : Fin 1)) fun a => by
    match a with
    | ⟨0, _⟩ => rfl
    | ⟨1, _⟩ => rfl

/-- The first call's block arithmetic at entry (p, q): the entry divided by its row's divisor. -/
theorem pay0_apply (x : Vec Ideal S5000x64 .f32) (p : Fin 5000) (q : Fin 64) :
    k0_pay1 (F := Ideal) x (ix2 p q) = Ideal.div (x (ix2 p q)) (rowDen x p) := by
  unfold k0_pay1
  show Ideal.div (x (ix2 p q)) (broadcastTo S5000x64 _ Gen.broadcasts_S5000x1_S5000x64 (ix2 p q)) = _
  rw [spreadCol_apply]
  show Ideal.div (x (ix2 p q)) (max (Ideal.sqrt (shapeCast S5000x1 _ Gen.shapeCasts_S5000_S5000x1 (ix2 p (0 : Fin 1)))) (Ideal.ofBits .f32 0x2B8CBCCC#32)) = _
  rw [castCol_apply, laneSum_apply]
  rfl

/-- The second call's block arithmetic at entry (p, q): the same quotient (its leading cast of the block to its own
    shape changes nothing). -/
theorem pay3_apply (x : Vec Ideal S5000x64 .f32) (p : Fin 5000) (q : Fin 64) :
    k3_pay1 (F := Ideal) x (ix2 p q) = Ideal.div (x (ix2 p q)) (rowDen x p) := by
  unfold k3_pay1
  rw [shapeCast_self]
  show Ideal.div (x (ix2 p q)) (broadcastTo S5000x64 _ Gen.broadcasts_S5000x1_S5000x64 (ix2 p q)) = _
  rw [spreadCol_apply]
  show Ideal.div (x (ix2 p q)) (max (Ideal.sqrt (shapeCast S5000x1 _ Gen.shapeCasts_S5000_S5000x1 (ix2 p (0 : Fin 1)))) (Ideal.ofBits .f32 0x2B8CBCCC#32)) = _
  rw [castCol_apply, laneSum_apply]
  rfl

/-! ### The whole-array arithmetic -/

/-- The row sums of a 50000×64 array from an initial value: at row `r`, that value plus the sum of the row's 64 entries. -/
theorem hostRowSum_apply (v : FVec Ideal Cert.ReferenceIdeal.S50000x64 .f32) (init : Cert.ReferenceIdeal.S_.Idx → Ideal .f32) (r : Fin 50000) :
    Host.reduceAdd (F := Ideal) v init Cert.ReferenceIdeal.Gen.reducesTo_S50000x64_S50000_d1 Cert.ReferenceIdeal.Gen.h_S_ (ix1 r)
      = init ix0 + ∑ k : Fin 64, v (ix2 r k) := by
  have hred : Cert.ReferenceIdeal.S50000x64.Reduces [1] Cert.ReferenceIdeal.S50000 := by decide
  show Ideal.hostReduceAdd Cert.ReferenceIdeal.Gen.reducesTo_S50000x64_S50000_d1 v (init (Shape.Idx.first Cert.ReferenceIdeal.Gen.h_S_)) (ix1 r) = _
  rw [Ideal.hostReduceAdd_single _ hred, eq_ix0 (Shape.Idx.first Cert.ReferenceIdeal.Gen.h_S_)]
  refine congrArg (init ix0 + ·) (Finset.sum_congr rfl fun k _ => congrArg v ?_)
  funext a; apply Fin.ext
  match a with
  | ⟨0, _⟩ => rfl
  | ⟨1, _⟩ => rfl

/-- The 50000 row values laid out as a 50000×1 column: entry (r, 0) is row `r`'s value. -/
theorem hostCol_apply {α : Type} (v : Cert.ReferenceIdeal.S50000.Idx → α) (r : Fin 50000) :
    broadcastInDim Cert.ReferenceIdeal.S50000x1 ![0] Cert.ReferenceIdeal.Gen.bcast_S50000_S50000x1_0 v (ix2 r (0 : Fin 1)) = v (ix1 r) :=
  broadcastInDim_apply _ _ v _ (ix1 r) fun a => by
    match a with
    | ⟨0, _⟩ => rfl

/-- A 50000×1 column spread over the 64 lanes: entry (r, q) is the column's entry of row `r`. -/
theorem hostSpread_apply {α : Type} (v : Cert.ReferenceIdeal.S50000x1.Idx → α) (r : Fin 50000) (q : Fin 64) :
    broadcastInDim Cert.ReferenceIdeal.S50000x64 ![0, 1] Cert.ReferenceIdeal.Gen.bcast_S50000x1_S50000x64_0_1 v (ix2 r q) = v (ix2 r (0 : Fin 1)) :=
  broadcastInDim_apply _ _ v _ (ix2 r (0 : Fin 1)) fun a => by
    match a with
    | ⟨0, _⟩ => rfl
    | ⟨1, _⟩ => rfl

/-- A quotient of two arrays at an entry is the quotient of the entries. -/
theorem hostDiv_apply (a b : FVec Ideal Cert.ReferenceIdeal.S50000x64 .f32) (i : Cert.ReferenceIdeal.S50000x64.Idx) :
    Host.divf a b i = Ideal.div (a i) (b i) := rfl

/-- The square root of a column at an entry is the square root of the entry. -/
theorem hostSqrt_apply (a : FVec Ideal Cert.ReferenceIdeal.S50000x1 .f32) (i : Cert.ReferenceIdeal.S50000x1.Idx) :
    Host.sqrt a i = Ideal.sqrt (a i) := rfl

/-- A constant spread over a column is that constant at every entry. -/
theorem hostConst_apply (b : BitVec 32) (i : Cert.ReferenceIdeal.S50000x1.Idx) :
    broadcastInDim Cert.ReferenceIdeal.S50000x1 ![] Cert.ReferenceIdeal.Gen.bcast_S_S50000x1 (constant (F := Ideal) Cert.ReferenceIdeal.S_ .f32 b) i
      = Ideal.ofBits .f32 b := rfl

/-- The whole-array normalisation at entry (r, q): the entry divided by its row's divisor (the row sum starts from the
    constant 0, which adds nothing). -/
theorem spec_apply (X : (⟨Cert.ReferenceIdeal.S50000x64, .f32⟩ : BufTy).Contents (Elt Ideal)) (r : Fin 50000) (q : Fin 64) :
    Cert.Spec.normalize (F := Ideal) X (ix2 r q) = Ideal.div (X (ix2 r q)) (rowDen X r) := by
  unfold Cert.Spec.normalize
  rw [hostDiv_apply, hostSpread_apply, maximumf_apply, hostSqrt_apply, hostCol_apply]
  beta_reduce
  rw [hostRowSum_apply, hostConst_apply, constant_apply, Ideal.ofBits_zero_f32, zero_add]
  rfl

/-! ## From row blocks to the array

Point `t` of the grid reads rows 5000·t … 5000·t + 4999 of the input and writes back the same rows of the output; the
ten blocks tile the 50000 rows (row `r` lies in the block of point `r / 5000`). -/

theorem zero_offsets : (![0, 0] : Fin 2 → Nat) = fun _ => 0 := funext fun a => by fin_cases a <;> rfl

/-! ### The first call -/

/-- Both windows of the first call move with the grid: at point `t` the block is row block `t`, column block 0. -/
theorem blockIndex0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block whose row `p` is row `n · 5000 + p` of the array: the block arithmetic on it gives those rows of the
    whole-array result (an entry of either depends on its own row only). -/
theorem block_eq0 (X : (⟨Cert.ReferenceIdeal.S50000x64, .f32⟩ : BufTy).Contents (Elt Ideal)) (x : Vec Ideal S5000x64 .f32) (n : Nat) (hn : n < 10)
    (hx : ∀ (p : Fin 5000) (k : Fin 64), x (ix2 p k) = X (ix2 (⟨n * 5000 + p.val, by have := p.isLt; omega⟩ : Fin 50000) k))
    (p : Fin 5000) (q : Fin 64) :
    k0_pay1 (F := Ideal) x (ix2 p q)
      = Cert.Spec.normalize (F := Ideal) X (ix2 (⟨n * 5000 + p.val, by have := p.isLt; omega⟩ : Fin 50000) q) := by
  rw [pay0_apply, spec_apply]
  unfold rowDen
  simp only [hx]

/-- What point `t` writes back is row block `t` of the normalised input array. -/
theorem writeBack0 (V : (c : Dev nD) → (b : Ref sig .tc) → Buf (Elt Ideal) ((c : Thread nD τ).loc b)) (c : Dev nD) (t : Fin cfg0.N) :
    (dat0 (F := Ideal) V c).flushed 1 t
      = ((cfg0.win 1).blk t).view.read (Elt Ideal) (Cert.Spec.normalize (F := Ideal) (V c (Pipeline.arrRef spec0 0))) := by
  show (cfg0.win 1).cut (grid0.coords t) ((dat0 V c).after 1 t) = _
  rw [after0_1]
  unfold out0_1
  rw [View.canon_unit_zero zero_offsets]
  simp only [View.ld_unit_zero (S := S5000x64) zero_offsets]
  obtain ⟨e0, e1, e2, e3⟩ := blockIndex0 t
  have hN : t.val < 10 := by have h := t.isLt; have e : cfg0.N = 10 := N_0; omega
  funext j
  obtain ⟨p, q, rfl⟩ : ∃ (p : Fin 5000) (q : Fin 64), j = ix2 p q := ⟨j 0, j 1, eq_ix2 j⟩
  show k0_pay1 (F := Ideal) (iblk0 V c 0 t) (ix2 p q)
    = Cert.Spec.normalize (F := Ideal) (V c (Pipeline.arrRef spec0 0)) (((cfg0.win 1).blk t).view.emb (ix2 p q))
  -- entry (p, q) of the output block is entry (5000·t + p, q) of the output array
  have hemb : ((cfg0.win 1).blk t).view.emb (ix2 p q) = ix2 (⟨t.val * 5000 + p.val, by have := p.isLt; omega⟩ : Fin 50000) q := by
    funext a; apply Fin.ext
    match a with
    | ⟨0, _⟩ => show win0_1.index t (0 : Fin 2) * 5000 + 1 * p.val = t.val * 5000 + p.val; omega
    | ⟨1, _⟩ => show win0_1.index t (1 : Fin 2) * 64 + 1 * q.val = q.val; omega
  rw [hemb]
  refine block_eq0 _ _ t.val hN (fun p' k => ?_) p q
  -- entry (p', k) of the input block is entry (5000·t + p', k) of the input array
  show V c (Pipeline.arrRef spec0 0) (((cfg0.win 0).blk t).view.emb (ix2 p' k)) = _
  refine congrArg _ ?_
  funext a; apply Fin.ext
  match a with
  | ⟨0, _⟩ => show win0_0.index t (0 : Fin 2) * 5000 + 1 * p'.val = t.val * 5000 + p'.val; omega
  | ⟨1, _⟩ => show win0_0.index t (1 : Fin 2) * 64 + 1 * k.val = k.val; omega

/-- An entry of the output array is in point `t`'s block iff each of its coordinates is in the block's range. -/
theorem mem_rowBlock0 (t : Fin cfg0.N) (i : S50000x64.Idx) :
    i ∈ ((cfg0.win 1).blk t).view.set ↔ ∀ a : Fin 2, win0_1.index t a * S5000x64.size a ≤ (i a).val ∧ (i a).val < win0_1.index t a * S5000x64.size a + S5000x64.size a := by
  show i ∈ ((View.whole main_v4).slice (win0_1.rect t)).set ↔ _
  rw [View.set_slice_whole, Rect.mem_set_unit]
  exact Iff.rfl

/-- Every entry of the output array is in some point's block: row `r` in that of point `r / 5000`. -/
theorem rows_covered0 (i : S50000x64.Idx) : ∃ t : Fin cfg0.N, (cfg0.win 1).flush t = true ∧ i ∈ ((cfg0.win 1).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by omega⟩, rfl⟩
  refine ⟨t, flush0_1 t, ?_⟩
  rw [mem_rowBlock0]
  obtain ⟨e0, e1, e2, e3⟩ := blockIndex0 t
  intro a
  match a with
  | ⟨0, _⟩ => show win0_1.index t (0 : Fin 2) * 5000 ≤ (i 0).val ∧ (i 0).val < win0_1.index t (0 : Fin 2) * 5000 + 5000; omega
  | ⟨1, _⟩ => show win0_1.index t (1 : Fin 2) * 64 ≤ (i 1).val ∧ (i 1).val < win0_1.index t (1 : Fin 2) * 64 + 64; omega

/-- The first normalisation (of the input features). -/
theorem region0 (V : (c : Dev nD) → (b : Ref sig .tc) → Buf (Elt Ideal) ((c : Thread nD τ).loc b)) (c : Dev nD) :
    (dat0 (F := Ideal) V c).arrAt 1 cfg0.N = Cert.Spec.normalize (F := Ideal) (V c (Pipeline.arrRef spec0 0)) := by
  exact (dat0 (F := Ideal) V c).arrAt_eq_of_cover 1 _ (fun t _ => writeBack0 V c t) rows_covered0

/-! ### The second call -/

/-- Both windows of the second call move with the grid: at point `t` the block is row block `t`, column block 0. -/
theorem blockIndex3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- A block whose row `p` is row `n · 5000 + p` of the array: the block arithmetic on it gives those rows of the
    whole-array result (an entry of either depends on its own row only). -/
theorem block_eq3 (X : (⟨Cert.ReferenceIdeal.S50000x64, .f32⟩ : BufTy).Contents (Elt Ideal)) (x : Vec Ideal S5000x64 .f32) (n : Nat) (hn : n < 10)
    (hx : ∀ (p : Fin 5000) (k : Fin 64), x (ix2 p k) = X (ix2 (⟨n * 5000 + p.val, by have := p.isLt; omega⟩ : Fin 50000) k))
    (p : Fin 5000) (q : Fin 64) :
    k3_pay1 (F := Ideal) x (ix2 p q)
      = Cert.Spec.normalize (F := Ideal) X (ix2 (⟨n * 5000 + p.val, by have := p.isLt; omega⟩ : Fin 50000) q) := by
  rw [pay3_apply, spec_apply]
  unfold rowDen
  simp only [hx]

/-- What point `t` writes back is row block `t` of the normalised input array. -/
theorem writeBack3 (V : (c : Dev nD) → (b : Ref sig .tc) → Buf (Elt Ideal) ((c : Thread nD τ).loc b)) (c : Dev nD) (t : Fin cfg3.N) :
    (dat3 (F := Ideal) V c).flushed 1 t
      = ((cfg3.win 1).blk t).view.read (Elt Ideal) (Cert.Spec.normalize (F := Ideal) (V c (Pipeline.arrRef spec3 0))) := by
  show (cfg3.win 1).cut (grid3.coords t) ((dat3 V c).after 1 t) = _
  rw [after3_1]
  unfold out3_1
  rw [View.canon_unit_zero zero_offsets]
  simp only [View.ld_unit_zero (S := S5000x64) zero_offsets]
  obtain ⟨e0, e1, e2, e3⟩ := blockIndex3 t
  have hN : t.val < 10 := by have h := t.isLt; have e : cfg3.N = 10 := N_3; omega
  funext j
  obtain ⟨p, q, rfl⟩ : ∃ (p : Fin 5000) (q : Fin 64), j = ix2 p q := ⟨j 0, j 1, eq_ix2 j⟩
  show k3_pay1 (F := Ideal) (iblk3 V c 0 t) (ix2 p q)
    = Cert.Spec.normalize (F := Ideal) (V c (Pipeline.arrRef spec3 0)) (((cfg3.win 1).blk t).view.emb (ix2 p q))
  -- entry (p, q) of the output block is entry (5000·t + p, q) of the output array
  have hemb : ((cfg3.win 1).blk t).view.emb (ix2 p q) = ix2 (⟨t.val * 5000 + p.val, by have := p.isLt; omega⟩ : Fin 50000) q := by
    funext a; apply Fin.ext
    match a with
    | ⟨0, _⟩ => show win3_1.index t (0 : Fin 2) * 5000 + 1 * p.val = t.val * 5000 + p.val; omega
    | ⟨1, _⟩ => show win3_1.index t (1 : Fin 2) * 64 + 1 * q.val = q.val; omega
  rw [hemb]
  refine block_eq3 _ _ t.val hN (fun p' k => ?_) p q
  -- entry (p', k) of the input block is entry (5000·t + p', k) of the input array
  show V c (Pipeline.arrRef spec3 0) (((cfg3.win 0).blk t).view.emb (ix2 p' k)) = _
  refine congrArg _ ?_
  funext a; apply Fin.ext
  match a with
  | ⟨0, _⟩ => show win3_0.index t (0 : Fin 2) * 5000 + 1 * p'.val = t.val * 5000 + p'.val; omega
  | ⟨1, _⟩ => show win3_0.index t (1 : Fin 2) * 64 + 1 * k.val = k.val; omega

/-- An entry of the output array is in point `t`'s block iff each of its coordinates is in the block's range. -/
theorem mem_rowBlock3 (t : Fin cfg3.N) (i : S50000x64.Idx) :
    i ∈ ((cfg3.win 1).blk t).view.set ↔ ∀ a : Fin 2, win3_1.index t a * S5000x64.size a ≤ (i a).val ∧ (i a).val < win3_1.index t a * S5000x64.size a + S5000x64.size a := by
  show i ∈ ((View.whole main_v98).slice (win3_1.rect t)).set ↔ _
  rw [View.set_slice_whole, Rect.mem_set_unit]
  exact Iff.rfl

/-- Every entry of the output array is in some point's block: row `r` in that of point `r / 5000`. -/
theorem rows_covered3 (i : S50000x64.Idx) : ∃ t : Fin cfg3.N, (cfg3.win 1).flush t = true ∧ i ∈ ((cfg3.win 1).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by omega⟩, rfl⟩
  refine ⟨t, flush3_1 t, ?_⟩
  rw [mem_rowBlock3]
  obtain ⟨e0, e1, e2, e3⟩ := blockIndex3 t
  intro a
  match a with
  | ⟨0, _⟩ => show win3_1.index t (0 : Fin 2) * 5000 ≤ (i 0).val ∧ (i 0).val < win3_1.index t (0 : Fin 2) * 5000 + 5000; omega
  | ⟨1, _⟩ => show win3_1.index t (1 : Fin 2) * 64 ≤ (i 1).val ∧ (i 1).val < win3_1.index t (1 : Fin 2) * 64 + 64; omega

/-- The second normalisation (of the hidden features). -/
theorem region3 (V : (c : Dev nD) → (b : Ref sig .tc) → Buf (Elt Ideal) ((c : Thread nD τ).loc b)) (c : Dev nD) :
    (dat3 (F := Ideal) V c).arrAt 1 cfg3.N = Cert.Spec.normalize (F := Ideal) (V c (Pipeline.arrRef spec3 0)) := by
  exact (dat3 (F := Ideal) V c).arrAt_eq_of_cover 1 _ (fun t _ => writeBack3 V c t) rows_covered3

end Cert.KernelIdeal.RegionValue

end
-- ==== Proof.RegionMatmul.lean ====
/-
  The feature projections, ten row blocks at a time: after the pipelined call the output array holds the matrix product of the whole input with the weights.
-/
import proofs.«408244_j28587302322281_3_alg».proof.Proof.Gen.KernelIdeal.Frame
import proofs.«408244_j28587302322281_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The body's loads and its store start at the corner of their buffers. -/
theorem zeroOffsets : (![0, 0] : Fin 2 → Nat) = fun _ => 0 := funext fun a => by fin_cases a <;> rfl

/-! ## The 64-column product

The block's rows times the 64-column weight, and the whole array's rows times it: entry `(r, q)` of either is `Σ_k x(r, k) · w(k, q)`
over the 64 shared columns of `x` / rows of `w`. -/

/-- The block product's contraction: `x`'s axis 1 against `w`'s axis 0. -/
abbrev blockDot64 := dot_S5000x64_S64x64_S5000x64_1_0_0_1_n_n

/-- The left operand is read at the output's row … -/
theorem blockDot64_lhs_row (j : S5000x64.Idx) (k : blockDot64.contr.Idx) : (blockDot64.lhsIdx j k 0 : ℕ) = j 0 := by
  simp [DotDims.lhsIdx, blockDot64, dot_S5000x64_S64x64_S5000x64_1_0_0_1_n_n]; rfl
/-- … and the contracted column; -/
theorem blockDot64_lhs_col (j : S5000x64.Idx) (k : blockDot64.contr.Idx) : (blockDot64.lhsIdx j k 1 : ℕ) = k ⟨0, by decide⟩ := by
  simp [DotDims.lhsIdx, blockDot64, dot_S5000x64_S64x64_S5000x64_1_0_0_1_n_n]; rfl
/-- the right operand at the contracted row … -/
theorem blockDot64_rhs_row (j : S5000x64.Idx) (k : blockDot64.contr.Idx) : (blockDot64.rhsIdx j k 0 : ℕ) = k ⟨0, by decide⟩ := by
  simp [DotDims.rhsIdx, blockDot64, dot_S5000x64_S64x64_S5000x64_1_0_0_1_n_n]; rfl
/-- … and the output's column. -/
theorem blockDot64_rhs_col (j : S5000x64.Idx) (k : blockDot64.contr.Idx) : (blockDot64.rhsIdx j k 1 : ℕ) = j 1 := by
  simp [DotDims.rhsIdx, blockDot64, dot_S5000x64_S64x64_S5000x64_1_0_0_1_n_n]; rfl

/-- Entry `(p, q)` of what the body stores: the change of float format is the identity on extended reals and the
    accumulator is zero, so it is the row `p` of `x` against the column `q` of `w`. -/
theorem blockProduct64_apply (x : FVec Ideal S5000x64 .f32) (w : FVec Ideal S64x64 .f32) (p : Fin 5000) (q : Fin 64) :
    k1_pay1 (F := Ideal) x w (ix2 p q) = ∑ k : Fin 64, x (ix2 p k) * w (ix2 k q) := by
  unfold k1_pay1
  refine (Ideal.matmul_constant_zero_apply _ none _ _ _).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 p q) ((contrEquiv1 dot_S5000x64_S64x64_S5000x64_1_0_0_1_n_n 64 rfl rfl).symm k) = ix2 p k := by
    funext a; apply Fin.ext
    match a with
    | ⟨0, _⟩ => exact blockDot64_lhs_row _ _
    | ⟨1, _⟩ => exact (blockDot64_lhs_col _ _).trans hk
  have hr : dot_S5000x64_S64x64_S5000x64_1_0_0_1_n_n.rhsIdx (ix2 p q) ((contrEquiv1 dot_S5000x64_S64x64_S5000x64_1_0_0_1_n_n 64 rfl rfl).symm k) = ix2 k q := by
    funext a; apply Fin.ext
    match a with
    | ⟨0, _⟩ => exact (blockDot64_rhs_row _ _).trans hk
    | ⟨1, _⟩ => exact blockDot64_rhs_col _ _
  rw [truncf_apply, truncf_apply, hl, hr]

/-- The whole-array product's contraction: the same axes at 50000 rows. -/
abbrev arrayDot64 := Cert.ReferenceIdeal.dot_S50000x64_S64x64_S50000x64_1_0_0_1_n_n

theorem arrayDot64_lhs_row (j : Cert.ReferenceIdeal.S50000x64.Idx) (k : arrayDot64.contr.Idx) : (arrayDot64.lhsIdx j k 0 : ℕ) = j 0 := by
  simp [DotDims.lhsIdx, arrayDot64, Cert.ReferenceIdeal.dot_S50000x64_S64x64_S50000x64_1_0_0_1_n_n]; rfl
theorem arrayDot64_lhs_col (j : Cert.ReferenceIdeal.S50000x64.Idx) (k : arrayDot64.contr.Idx) : (arrayDot64.lhsIdx j k 1 : ℕ) = k ⟨0, by decide⟩ := by
  simp [DotDims.lhsIdx, arrayDot64, Cert.ReferenceIdeal.dot_S50000x64_S64x64_S50000x64_1_0_0_1_n_n]; rfl
theorem arrayDot64_rhs_row (j : Cert.ReferenceIdeal.S50000x64.Idx) (k : arrayDot64.contr.Idx) : (arrayDot64.rhsIdx j k 0 : ℕ) = k ⟨0, by decide⟩ := by
  simp [DotDims.rhsIdx, arrayDot64, Cert.ReferenceIdeal.dot_S50000x64_S64x64_S50000x64_1_0_0_1_n_n]; rfl
theorem arrayDot64_rhs_col (j : Cert.ReferenceIdeal.S50000x64.Idx) (k : arrayDot64.contr.Idx) : (arrayDot64.rhsIdx j k 1 : ℕ) = j 1 := by
  simp [DotDims.rhsIdx, arrayDot64, Cert.ReferenceIdeal.dot_S50000x64_S64x64_S50000x64_1_0_0_1_n_n]; rfl

/-- Entry `(r, q)` of the whole-array product: the row `r` of `X` against the column `q` of `w`. -/
theorem arrayProduct64_apply (X : FVec Ideal Cert.ReferenceIdeal.S50000x64 .f32) (w : FVec Ideal Cert.ReferenceIdeal.S64x64 .f32) (r : Fin 50000) (q : Fin 64) :
    Cert.Spec.proj64 (F := Ideal) X w (ix2 r q) = ∑ k : Fin 64, X (ix2 r k) * w (ix2 k q) := by
  unfold Cert.Spec.proj64
  simp only [Host.dotGeneral]
  rw [Ideal.dotGeneral_apply]
  rw [← Equiv.sum_comp (contrEquiv1 Cert.ReferenceIdeal.dot_S50000x64_S64x64_S50000x64_1_0_0_1_n_n 64 rfl rfl).symm]
  refine Finset.sum_congr rfl fun k _ => ?_
  have hk := contrEquiv1_symm_val Cert.ReferenceIdeal.dot_S50000x64_S64x64_S50000x64_1_0_0_1_n_n 64 rfl rfl k
  have hl : Cert.ReferenceIdeal.dot_S50000x64_S64x64_S50000x64_1_0_0_1_n_n.lhsIdx (ix2 r q) ((contrEquiv1 Cert.ReferenceIdeal.dot_S50000x64_S64x64_S50000x64_1_0_0_1_n_n 64 rfl rfl).symm k) = ix2 r k := by
    funext a; apply Fin.ext
    match a with
    | ⟨0, _⟩ => exact arrayDot64_lhs_row _ _
    | ⟨1, _⟩ => exact (arrayDot64_lhs_col _ _).trans hk
  have hr : Cert.ReferenceIdeal.dot_S50000x64_S64x64_S50000x64_1_0_0_1_n_n.rhsIdx (ix2 r q) ((contrEquiv1 Cert.ReferenceIdeal.dot_S50000x64_S64x64_S50000x64_1_0_0_1_n_n 64 rfl rfl).symm k) = ix2 k q := by
    funext a; apply Fin.ext
    match a with
    | ⟨0, _⟩ => exact (arrayDot64_rhs_row _ _).trans hk
    | ⟨1, _⟩ => exact arrayDot64_rhs_col _ _
  rw [hl, hr]

/-- A row of the product depends on that row of `x` alone: when row `j 0` of the block `x` is row `i 0` of the array `X`, the
    weights agree and the columns agree, the block product at `j` is the array product at `i`. -/
theorem blockProduct64_eq_arrayProduct64 (X : FVec Ideal Cert.ReferenceIdeal.S50000x64 .f32) (W : FVec Ideal Cert.ReferenceIdeal.S64x64 .f32)
    (x : FVec Ideal S5000x64 .f32) (w : FVec Ideal S64x64 .f32) (j : S5000x64.Idx) (i : Cert.ReferenceIdeal.S50000x64.Idx)
    (hx : ∀ k : Fin 64, x (ix2 (⟨(j 0).val, (j 0).isLt⟩ : Fin 5000) k) = X (ix2 (⟨(i 0).val, (i 0).isLt⟩ : Fin 50000) k))
    (hw : w = W) (h1 : (i 1).val = (j 1).val) :
    k1_pay1 (F := Ideal) x w j = Cert.Spec.proj64 (F := Ideal) X W i := by
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q' = q := Fin.ext h1
  subst hw
  rw [blockProduct64_apply, arrayProduct64_apply]
  exact Finset.sum_congr rfl fun k _ => by rw [← hx k]

/-- Which blocks a grid point touches: the rows' block and the output's block are the point's own, block column 0; the weight is
    always its one block. -/
theorem blockIndices64 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array product: rows `5000 t … 5000 t + 4999` of `x` are the block the body
    loads, and the weight block is the whole weight. -/
theorem writtenBlock64 (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (Cert.Spec.proj64 (F := Ideal) (V c (Pipeline.arrRef spec1 0)) (V c (Pipeline.arrRef spec1 1))) := by
  show (cfg1.win 2).cut (grid1.coords t) ((dat1 V c).after 2 t) = _
  rw [after1_2]
  unfold out1_2
  rw [View.canon_unit_zero zeroOffsets]
  simp only [View.ld_unit_zero (S := S5000x64) zeroOffsets, View.ld_unit_zero (S := S64x64) zeroOffsets]
  funext j
  obtain ⟨e0, e1, e2, e3, e4, e5⟩ := blockIndices64 t
  have hj0 : (j 0).val < 5000 := (j 0).isLt
  have hj1 : (j 1).val < 64 := (j 1).isLt
  refine blockProduct64_eq_arrayProduct64 _ _ _ _ _ _ (fun k => ?_) ?_ ?_
  · show V c (Pipeline.arrRef spec1 0) (((cfg1.win 0).blk t).view.emb (ix2 (⟨(j 0).val, hj0⟩ : Fin 5000) k)) = _
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  · funext y
    show V c (Pipeline.arrRef spec1 1) (((cfg1.win 1).blk t).view.emb y) = V c (Pipeline.arrRef spec1 1) y
    refine congrArg _ (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · show win1_2.index t (1 : Fin 2) * 64 + 1 * (j 1).val = (j 1).val
    omega

/-- An index of the output array is in point `t`'s block iff each coordinate is in the block's range on its axis. -/
theorem mem_outputBlock64 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v64).slice (win1_2.rect t)).set ↔ _
  rw [View.set_slice_whole, Rect.mem_set_unit]
  exact Iff.rfl

/-! ## The 40-column product

The block's rows times the 40-column weight, and the whole array's rows times it: entry `(r, q)` of either is `Σ_k x(r, k) · w(k, q)`
over the 64 shared columns of `x` / rows of `w`. -/

/-- The block product's contraction: `x`'s axis 1 against `w`'s axis 0. -/
abbrev blockDot40 := dot_S5000x64_S64x40_S5000x40_1_0_0_1_n_n

/-- The left operand is read at the output's row … -/
theorem blockDot40_lhs_row (j : S5000x40.Idx) (k : blockDot40.contr.Idx) : (blockDot40.lhsIdx j k 0 : ℕ) = j 0 := by
  simp [DotDims.lhsIdx, blockDot40, dot_S5000x64_S64x40_S5000x40_1_0_0_1_n_n]; rfl
/-- … and the contracted column; -/
theorem blockDot40_lhs_col (j : S5000x40.Idx) (k : blockDot40.contr.Idx) : (blockDot40.lhsIdx j k 1 : ℕ) = k ⟨0, by decide⟩ := by
  simp [DotDims.lhsIdx, blockDot40, dot_S5000x64_S64x40_S5000x40_1_0_0_1_n_n]; rfl
/-- the right operand at the contracted row … -/
theorem blockDot40_rhs_row (j : S5000x40.Idx) (k : blockDot40.contr.Idx) : (blockDot40.rhsIdx j k 0 : ℕ) = k ⟨0, by decide⟩ := by
  simp [DotDims.rhsIdx, blockDot40, dot_S5000x64_S64x40_S5000x40_1_0_0_1_n_n]; rfl
/-- … and the output's column. -/
theorem blockDot40_rhs_col (j : S5000x40.Idx) (k : blockDot40.contr.Idx) : (blockDot40.rhsIdx j k 1 : ℕ) = j 1 := by
  simp [DotDims.rhsIdx, blockDot40, dot_S5000x64_S64x40_S5000x40_1_0_0_1_n_n]; rfl

/-- Entry `(p, q)` of what the body stores: the change of float format is the identity on extended reals and the
    accumulator is zero, so it is the row `p` of `x` against the column `q` of `w`. -/
theorem blockProduct40_apply (x : FVec Ideal S5000x64 .f32) (w : FVec Ideal S64x40 .f32) (p : Fin 5000) (q : Fin 40) :
    k4_pay1 (F := Ideal) x w (ix2 p q) = ∑ k : Fin 64, x (ix2 p k) * w (ix2 k q) := by
  unfold k4_pay1
  rw [shapeCast_self]
  refine (Ideal.matmul_constant_zero_apply _ none _ _ _).trans ?_
  rw [← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have hl : dot_S5000x64_S64x40_S5000x40_1_0_0_1_n_n.lhsIdx (ix2 p q) ((contrEquiv1 dot_S5000x64_S64x40_S5000x40_1_0_0_1_n_n 64 rfl rfl).symm k) = ix2 p k := by
    funext a; apply Fin.ext
    match a with
    | ⟨0, _⟩ => exact blockDot40_lhs_row _ _
    | ⟨1, _⟩ => exact (blockDot40_lhs_col _ _).trans hk
  have hr : dot_S5000x64_S64x40_S5000x40_1_0_0_1_n_n.rhsIdx (ix2 p q) ((contrEquiv1 dot_S5000x64_S64x40_S5000x40_1_0_0_1_n_n 64 rfl rfl).symm k) = ix2 k q := by
    funext a; apply Fin.ext
    match a with
    | ⟨0, _⟩ => exact (blockDot40_rhs_row _ _).trans hk
    | ⟨1, _⟩ => exact blockDot40_rhs_col _ _
  rw [truncf_apply, truncf_apply, hl, hr]

/-- The whole-array product's contraction: the same axes at 50000 rows. -/
abbrev arrayDot40 := Cert.ReferenceIdeal.dot_S50000x64_S64x40_S50000x40_1_0_0_1_n_n

theorem arrayDot40_lhs_row (j : Cert.ReferenceIdeal.S50000x40.Idx) (k : arrayDot40.contr.Idx) : (arrayDot40.lhsIdx j k 0 : ℕ) = j 0 := by
  simp [DotDims.lhsIdx, arrayDot40, Cert.ReferenceIdeal.dot_S50000x64_S64x40_S50000x40_1_0_0_1_n_n]; rfl
theorem arrayDot40_lhs_col (j : Cert.ReferenceIdeal.S50000x40.Idx) (k : arrayDot40.contr.Idx) : (arrayDot40.lhsIdx j k 1 : ℕ) = k ⟨0, by decide⟩ := by
  simp [DotDims.lhsIdx, arrayDot40, Cert.ReferenceIdeal.dot_S50000x64_S64x40_S50000x40_1_0_0_1_n_n]; rfl
theorem arrayDot40_rhs_row (j : Cert.ReferenceIdeal.S50000x40.Idx) (k : arrayDot40.contr.Idx) : (arrayDot40.rhsIdx j k 0 : ℕ) = k ⟨0, by decide⟩ := by
  simp [DotDims.rhsIdx, arrayDot40, Cert.ReferenceIdeal.dot_S50000x64_S64x40_S50000x40_1_0_0_1_n_n]; rfl
theorem arrayDot40_rhs_col (j : Cert.ReferenceIdeal.S50000x40.Idx) (k : arrayDot40.contr.Idx) : (arrayDot40.rhsIdx j k 1 : ℕ) = j 1 := by
  simp [DotDims.rhsIdx, arrayDot40, Cert.ReferenceIdeal.dot_S50000x64_S64x40_S50000x40_1_0_0_1_n_n]; rfl

/-- Entry `(r, q)` of the whole-array product: the row `r` of `X` against the column `q` of `w`. -/
theorem arrayProduct40_apply (X : FVec Ideal Cert.ReferenceIdeal.S50000x64 .f32) (w : FVec Ideal Cert.ReferenceIdeal.S64x40 .f32) (r : Fin 50000) (q : Fin 40) :
    Cert.Spec.proj40 (F := Ideal) X w (ix2 r q) = ∑ k : Fin 64, X (ix2 r k) * w (ix2 k q) := by
  unfold Cert.Spec.proj40
  simp only [Host.dotGeneral]
  rw [Ideal.dotGeneral_apply]
  rw [← Equiv.sum_comp (contrEquiv1 Cert.ReferenceIdeal.dot_S50000x64_S64x40_S50000x40_1_0_0_1_n_n 64 rfl rfl).symm]
  refine Finset.sum_congr rfl fun k _ => ?_
  have hk := contrEquiv1_symm_val Cert.ReferenceIdeal.dot_S50000x64_S64x40_S50000x40_1_0_0_1_n_n 64 rfl rfl k
  have hl : Cert.ReferenceIdeal.dot_S50000x64_S64x40_S50000x40_1_0_0_1_n_n.lhsIdx (ix2 r q) ((contrEquiv1 Cert.ReferenceIdeal.dot_S50000x64_S64x40_S50000x40_1_0_0_1_n_n 64 rfl rfl).symm k) = ix2 r k := by
    funext a; apply Fin.ext
    match a with
    | ⟨0, _⟩ => exact arrayDot40_lhs_row _ _
    | ⟨1, _⟩ => exact (arrayDot40_lhs_col _ _).trans hk
  have hr : Cert.ReferenceIdeal.dot_S50000x64_S64x40_S50000x40_1_0_0_1_n_n.rhsIdx (ix2 r q) ((contrEquiv1 Cert.ReferenceIdeal.dot_S50000x64_S64x40_S50000x40_1_0_0_1_n_n 64 rfl rfl).symm k) = ix2 k q := by
    funext a; apply Fin.ext
    match a with
    | ⟨0, _⟩ => exact (arrayDot40_rhs_row _ _).trans hk
    | ⟨1, _⟩ => exact arrayDot40_rhs_col _ _
  rw [hl, hr]

/-- A row of the product depends on that row of `x` alone: when row `j 0` of the block `x` is row `i 0` of the array `X`, the
    weights agree and the columns agree, the block product at `j` is the array product at `i`. -/
theorem blockProduct40_eq_arrayProduct40 (X : FVec Ideal Cert.ReferenceIdeal.S50000x64 .f32) (W : FVec Ideal Cert.ReferenceIdeal.S64x40 .f32)
    (x : FVec Ideal S5000x64 .f32) (w : FVec Ideal S64x40 .f32) (j : S5000x40.Idx) (i : Cert.ReferenceIdeal.S50000x40.Idx)
    (hx : ∀ k : Fin 64, x (ix2 (⟨(j 0).val, (j 0).isLt⟩ : Fin 5000) k) = X (ix2 (⟨(i 0).val, (i 0).isLt⟩ : Fin 50000) k))
    (hw : w = W) (h1 : (i 1).val = (j 1).val) :
    k4_pay1 (F := Ideal) x w j = Cert.Spec.proj40 (F := Ideal) X W i := by
  obtain ⟨p, q, rfl⟩ : ∃ (p : Fin 5000) (q : Fin 40), j = ix2 p q := ⟨j 0, j 1, eq_ix2 j⟩
  obtain ⟨r, q', rfl⟩ : ∃ (r : Fin 50000) (q' : Fin 40), i = ix2 r q' := ⟨i 0, i 1, eq_ix2 i⟩
  obtain rfl : q' = q := Fin.ext h1
  subst hw
  rw [blockProduct40_apply, arrayProduct40_apply]
  exact Finset.sum_congr rfl fun k _ => by rw [← hx k]

/-- Which blocks a grid point touches: the rows' block and the output's block are the point's own, block column 0; the weight is
    always its one block. -/
theorem blockIndices40 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole-array product: rows `5000 t … 5000 t + 4999` of `x` are the block the body
    loads, and the weight block is the whole weight. -/
theorem writtenBlock40 (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal) (Cert.Spec.proj40 (F := Ideal) (V c (Pipeline.arrRef spec4 0)) (V c (Pipeline.arrRef spec4 1))) := by
  show (cfg4.win 2).cut (grid4.coords t) ((dat4 V c).after 2 t) = _
  rw [after4_2]
  unfold out4_2
  rw [View.canon_unit_zero zeroOffsets]
  simp only [View.ld_unit_zero (S := S5000x64) zeroOffsets, View.ld_unit_zero (S := S64x40) zeroOffsets]
  funext j
  obtain ⟨e0, e1, e2, e3, e4, e5⟩ := blockIndices40 t
  have hj0 : (j 0).val < 5000 := (j 0).isLt
  have hj1 : (j 1).val < 40 := (j 1).isLt
  refine blockProduct40_eq_arrayProduct40 _ _ _ _ _ _ (fun k => ?_) ?_ ?_
  · show V c (Pipeline.arrRef spec4 0) (((cfg4.win 0).blk t).view.emb (ix2 (⟨(j 0).val, hj0⟩ : Fin 5000) k)) = _
    refine congrArg _ (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  · funext y
    show V c (Pipeline.arrRef spec4 1) (((cfg4.win 1).blk t).view.emb y) = V c (Pipeline.arrRef spec4 1) y
    refine congrArg _ (funext fun a => Fin.ext ?_)
    match a with
    | ⟨0, _⟩ => show win4_1.index t (0 : Fin 2) * 64 + 1 * (y 0).val = (y 0).val; omega
    | ⟨1, _⟩ => show win4_1.index t (1 : Fin 2) * 40 + 1 * (y 1).val = (y 1).val; omega
  · show win4_2.index t (1 : Fin 2) * 40 + 1 * (j 1).val = (j 1).val
    omega

/-- An index of the output array is in point `t`'s block iff each coordinate is in the block's range on its axis. -/
theorem mem_outputBlock40 (t : Fin cfg4.N) (i : S50000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v158).slice (win4_2.rect t)).set ↔ _
  rw [View.set_slice_whole, Rect.mem_set_unit]
  exact Iff.rfl

/-! ## The two arrays -/

/-- The 64-column projection. -/
theorem region1 (V : (c : Dev nD) → (b : Ref sig .tc) → Buf (Elt Ideal) ((c : Thread nD τ).loc b)) (c : Dev nD) :
    (dat1 (F := Ideal) V c).arrAt 2 cfg1.N = Cert.Spec.proj64 (F := Ideal) (V c (Pipeline.arrRef spec1 0)) (V c (Pipeline.arrRef spec1 1)) :=
  -- every point writes its block of the product back, and row `r` of the array lies in the block of point `r / 5000`
  (dat1 (F := Ideal) V c).arrAt_eq_of_cover 2 _ (fun t _ => writtenBlock64 V c t) fun i => by
    have hi0 : (i 0).val < 50000 := (i 0).isLt
    have hi1 : (i 1).val < 64 := (i 1).isLt
    have hN : cfg1.N = 10 := N_1
    have ht : (i 0).val / 5000 < cfg1.N := by omega
    obtain ⟨e0, e1, e2, e3, e4, e5⟩ := blockIndices64 ⟨(i 0).val / 5000, ht⟩
    have e4' : win1_2.index ⟨(i 0).val / 5000, ht⟩ (0 : Fin 2) = (i 0).val / 5000 := e4
    refine ⟨⟨(i 0).val / 5000, ht⟩, flush1_2 _, ?_⟩
    rw [mem_outputBlock64]
    intro a
    match a with
    | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
    | ⟨1, _⟩ => show win1_2.index ⟨(i 0).val / 5000, ht⟩ (1 : Fin 2) * 64 ≤ (i 1).val ∧ (i 1).val < win1_2.index ⟨(i 0).val / 5000, ht⟩ (1 : Fin 2) * 64 + 64; omega

/-- The 40-column projection. -/
theorem region4 (V : (c : Dev nD) → (b : Ref sig .tc) → Buf (Elt Ideal) ((c : Thread nD τ).loc b)) (c : Dev nD) :
    (dat4 (F := Ideal) V c).arrAt 2 cfg4.N = Cert.Spec.proj40 (F := Ideal) (V c (Pipeline.arrRef spec4 0)) (V c (Pipeline.arrRef spec4 1)) :=
  -- every point writes its block of the product back, and row `r` of the array lies in the block of point `r / 5000`
  (dat4 (F := Ideal) V c).arrAt_eq_of_cover 2 _ (fun t _ => writtenBlock40 V c t) fun i => by
    have hi0 : (i 0).val < 50000 := (i 0).isLt
    have hi1 : (i 1).val < 40 := (i 1).isLt
    have hN : cfg4.N = 10 := N_4
    have ht : (i 0).val / 5000 < cfg4.N := by omega
    obtain ⟨e0, e1, e2, e3, e4, e5⟩ := blockIndices40 ⟨(i 0).val / 5000, ht⟩
    have e4' : win4_2.index ⟨(i 0).val / 5000, ht⟩ (0 : Fin 2) = (i 0).val / 5000 := e4
    refine ⟨⟨(i 0).val / 5000, ht⟩, flush4_2 _, ?_⟩
    rw [mem_outputBlock40]
    intro a
    match a with
    | ⟨0, _⟩ => show win4_2.index ⟨(i 0).val / 5000, ht⟩ (0 : Fin 2) * 5000 ≤ (i 0).val ∧ (i 0).val < win4_2.index ⟨(i 0).val / 5000, ht⟩ (0 : Fin 2) * 5000 + 5000; omega
    | ⟨1, _⟩ => show win4_2.index ⟨(i 0).val / 5000, ht⟩ (1 : Fin 2) * 40 ≤ (i 1).val ∧ (i 1).val < win4_2.index ⟨(i 0).val / 5000, ht⟩ (1 : Fin 2) * 40 + 40; omega

end Cert.KernelIdeal.RegionValue

end
-- ==== Proof.RegionFinalize.lean ====
/-
  The layer outputs, ten row blocks at a time. The call is handed the self weights, the inverse root degrees and the bias reshaped to one column, one column and one row; the statements take the unreshaped vectors and the three reshapes as hypotheses.
-/
import proofs.«408244_j28587302322281_3_alg».proof.Proof.Gen.KernelIdeal.Frame
import proofs.«408244_j28587302322281_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

namespace Finalize

/-! ## Layout operations read at an index

Entry (r, q) of either layer output is agg(r, q) + ((ws r · dinv r) · dinv r) · h(r, q) + b q (bounded below by zero in
the first layer): the body and the host apply the same operations in the same order, and differ only in how the column
(ws · dinv) · dinv and the bias row are spread over the block or the array. Each spreading is read at an index here. -/

/-- The zero offsets of a whole-block access, as a constant function. -/
theorem zero_offsets : (![0, 0] : Fin 2 → Nat) = fun _ => 0 := funext fun a => by fin_cases a <;> rfl

/-- A column block spread over the lanes reads, at (p, q), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first layer's body at (p, q): the block entries of row p and lane q combined, bounded below by zero. -/
theorem layerOut64_apply (x0 : Vec Ideal S5000x64 .f32) (x1 x2 : Vec Ideal S5000x1 .f32) (x3 : Vec Ideal S5000x64 .f32) (x4 : Vec Ideal S1x64 .f32)
    (p : Fin 5000) (q : Fin 64) :
    k2_pay1 (F := Ideal) x0 x1 x2 x3 x4 (ix2 p q)
      = max (x0 (ix2 p q) + ((x1 (ix2 p (0 : Fin 1)) * x2 (ix2 p (0 : Fin 1))) * x2 (ix2 p (0 : Fin 1))) * x3 (ix2 p q) + x4 (ix2 (0 : Fin 1) q))
          (Ideal.ofBits .f32 0x00000000#32) := by
  unfold k2_pay1
  simp only [shapeCast_self]
  rw [maximumf_apply, addf_apply, addf_apply, mulf_apply, broadcast_apply]
  rw [broadcastTo_a1_ab_apply, broadcastTo_1b_ab_apply, mulf_apply, mulf_apply]
  rfl

/-- A column spread over b lanes by the host reads, at (p, c), the column's entry of row p. -/
theorem bid_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row spread over a rows by the host reads, at (p, c), the row's entry of lane c. -/
theorem bid_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector made a column by the host reads, at (p, u), the vector's entry p. -/
theorem bid_a_a1_apply {α : Type} {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector made a row by the host reads, at (u, c), the vector's entry c. -/
theorem bid_b_1b_apply {α : Type} {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A scalar spread over a whole shape by the host reads the scalar everywhere. -/
theorem bid_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

/-- The first layer's output at (r, q), read through the host's layout operations. -/
theorem finalizeRelu_apply (agg h : (⟨S50000x64, .f32⟩ : BufTy).Contents (Elt Ideal))
    (ws dinv : (⟨S50000, .f32⟩ : BufTy).Contents (Elt Ideal)) (b : (⟨S64, .f32⟩ : BufTy).Contents (Elt Ideal))
    (r : Fin 50000) (q : Fin 64) :
    Cert.Spec.finalizeRelu (F := Ideal) agg ws dinv h b (ix2 r q)
      = max (agg (ix2 r q) + ((ws (ix1 r) * dinv (ix1 r)) * dinv (ix1 r)) * h (ix2 r q) + b (ix1 q))
          (Ideal.ofBits .f32 0x00000000#32) := by
  unfold Cert.Spec.finalizeRelu
  rw [maximumf_apply, addf_apply, addf_apply, mulf_apply]
  rw [bid_scalar_apply, bid_a1_ab_apply, bid_a_a1_apply, bid_1b_ab_apply, bid_b_1b_apply, mulf_apply, mulf_apply]
  rfl

/-! ## The first layer (width 64, bounded below by zero) -/

/-- A vector viewed as a column reads, at (p, u), the vector's entry p. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

section Region2

variable (V : (c : Dev nD) → (b : Ref sig .tc) → Buf (Elt Ideal) ((c : Thread nD τ).loc b)) (c : Dev nD)

/-- The block index of each window at each of the ten points: (t, 0) for the five row-blocked windows, (0, 0) for the bias. -/
theorem blockIndices64 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t of the aggregated messages is rows 5000 t … 5000 t + 4999 of the array. -/
theorem iblk2_0_apply (t : Fin cfg2.N) (p : Fin 5000) (q : Fin 64) (r : Fin 50000) (hr : r.val = t.val * 5000 + p.val) :
    (iblk2 (F := Ideal) V c 0 t : Vec Ideal S5000x64 .f32) (ix2 p q)
      = (V c (Pipeline.arrRef spec2 0) : S50000x64.Idx → Elt Ideal .f32) (ix2 r q) := by
  obtain ⟨e0, e1, -⟩ := blockIndices64 t
  unfold iblk2
  rw [View.read_apply]
  refine congrArg (V c (Pipeline.arrRef spec2 0)) (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * q.val = q.val; rw [e1]; omega

/-- Block t of the projected features is rows 5000 t … 5000 t + 4999 of the array. -/
theorem iblk2_3_apply (t : Fin cfg2.N) (p : Fin 5000) (q : Fin 64) (r : Fin 50000) (hr : r.val = t.val * 5000 + p.val) :
    (iblk2 (F := Ideal) V c 3 t : Vec Ideal S5000x64 .f32) (ix2 p q)
      = (V c (Pipeline.arrRef spec2 3) : S50000x64.Idx → Elt Ideal .f32) (ix2 r q) := by
  obtain ⟨-, -, -, -, -, -, e0, e1, -⟩ := blockIndices64 t
  unfold iblk2
  rw [View.read_apply]
  refine congrArg (V c (Pipeline.arrRef spec2 3)) (funext fun a => Fin.ext ?_)
  match a with
  | ⟨0, _⟩ => show win2_3.index t (0 : Fin 2) * 5000 + 1 * p.val = r.val; rw [e0, hr]; omega
  | ⟨1, _⟩ => show win2_3.index t (1 : Fin 2) * 64 + 1 * q.val = q.val; rw [e1]; omega

/-- Block t of the self weights' column is entries 5000 t … 5000 t + 4999 of the vector. -/
theorem iblk2_1_apply (ws : (⟨S50000, .f32⟩ : BufTy).Contents (Elt Ideal))
    (hws : V c (Pipeline.arrRef spec2 1) = shapeCast S50000x1 ws shapeCasts_S50000_S50000x1)
    (t : Fin cfg2.N) (p : Fin 5000) (u : Fin 1) (r : Fin 50000) (hr : r.val = t.val * 5000 + p.val) :
    (iblk2 (F := Ideal) V c 1 t : Vec Ideal S5000x1 .f32) (ix2 p u) = ws (ix1 r) := by
  obtain ⟨-, -, e0, e1, -⟩ := blockIndices64 t
  unfold iblk2
  rw [hws]
  show shapeCast S50000x1 ws shapeCasts_S50000_S50000x1 (((cfg2.win 1).blk t).view.emb (ix2 p u)) = ws (ix1 r)
  have hidx : ((cfg2.win 1).blk t).view.emb (ix2 p u) = ix2 r (0 : Fin 1) := by
    funext a; apply Fin.ext
    match a with
    | ⟨0, _⟩ => show win2_1.index t (0 : Fin 2) * 5000 + 1 * p.val = r.val; rw [e0, hr]; omega
    | ⟨1, _⟩ => show win2_1.index t (1 : Fin 2) * 1 + 1 * u.val = 0; rw [e1]; omega
  rw [hidx]
  exact shapeCast_a_a1_apply ws shapeCasts_S50000_S50000x1 r (0 : Fin 1)

/-- Block t of the inverse root degrees' column is entries 5000 t … 5000 t + 4999 of the vector. -/
theorem iblk2_2_apply (dinv : (⟨S50000, .f32⟩ : BufTy).Contents (Elt Ideal))
    (hdinv : V c (Pipeline.arrRef spec2 2) = shapeCast S50000x1 dinv shapeCasts_S50000_S50000x1)
    (t : Fin cfg2.N) (p : Fin 5000) (u : Fin 1) (r : Fin 50000) (hr : r.val = t.val * 5000 + p.val) :
    (iblk2 (F := Ideal) V c 2 t : Vec Ideal S5000x1 .f32) (ix2 p u) = dinv (ix1 r) := by
  obtain ⟨-, -, -, -, e0, e1, -⟩ := blockIndices64 t
  unfold iblk2
  rw [hdinv]
  show shapeCast S50000x1 dinv shapeCasts_S50000_S50000x1 (((cfg2.win 2).blk t).view.emb (ix2 p u)) = dinv (ix1 r)
  have hidx : ((cfg2.win 2).blk t).view.emb (ix2 p u) = ix2 r (0 : Fin 1) := by
    funext a; apply Fin.ext
    match a with
    | ⟨0, _⟩ => show win2_2.index t (0 : Fin 2) * 5000 + 1 * p.val = r.val; rw [e0, hr]; omega
    | ⟨1, _⟩ => show win2_2.index t (1 : Fin 2) * 1 + 1 * u.val = 0; rw [e1]; omega
  rw [hidx]
  exact shapeCast_a_a1_apply dinv shapeCasts_S50000_S50000x1 r (0 : Fin 1)

/-- The bias's one block, at every point, is the bias vector laid as a row. -/
theorem iblk2_4_apply (b : (⟨S64, .f32⟩ : BufTy).Contents (Elt Ideal))
    (hb : V c (Pipeline.arrRef spec2 4) = shapeCast S1x64 b shapeCasts_S64_S1x64)
    (t : Fin cfg2.N) (u : Fin 1) (q : Fin 64) :
    (iblk2 (F := Ideal) V c 4 t : Vec Ideal S1x64 .f32) (ix2 u q) = b (ix1 q) := by
  obtain ⟨-, -, -, -, -, -, -, -, e0, e1, -⟩ := blockIndices64 t
  unfold iblk2
  rw [hb]
  show shapeCast S1x64 b shapeCasts_S64_S1x64 (((cfg2.win 4).blk t).view.emb (ix2 u q)) = b (ix1 q)
  have hidx : ((cfg2.win 4).blk t).view.emb (ix2 u q) = ix2 (0 : Fin 1) q := by
    funext a; apply Fin.ext
    match a with
    | ⟨0, _⟩ => show win2_4.index t (0 : Fin 2) * 1 + 1 * u.val = 0; rw [e0]; omega
    | ⟨1, _⟩ => show win2_4.index t (1 : Fin 2) * 64 + 1 * q.val = q.val; rw [e1]; omega
  rw [hidx]
  exact shapeCast_a_1a_apply b shapeCasts_S64_S1x64 (0 : Fin 1) q

/-- What point t writes back is block t of the layer's output taken as one function of the whole arrays. -/
theorem writtenBack64 (ws dinv : (⟨S50000, .f32⟩ : BufTy).Contents (Elt Ideal)) (b : (⟨S64, .f32⟩ : BufTy).Contents (Elt Ideal))
    (hws : V c (Pipeline.arrRef spec2 1) = shapeCast S50000x1 ws shapeCasts_S50000_S50000x1)
    (hdinv : V c (Pipeline.arrRef spec2 2) = shapeCast S50000x1 dinv shapeCasts_S50000_S50000x1)
    (hb : V c (Pipeline.arrRef spec2 4) = shapeCast S1x64 b shapeCasts_S64_S1x64) (t : Fin cfg2.N) :
    (dat2 (F := Ideal) V c).flushed 5 t = ((cfg2.win 5).blk t).view.read (Elt Ideal)
      (Cert.Spec.finalizeRelu (F := Ideal) (V c (Pipeline.arrRef spec2 0)) ws dinv (V c (Pipeline.arrRef spec2 3)) b) := by
  show (cfg2.win 5).cut (grid2.coords t) ((dat2 (F := Ideal) V c).after 5 t) = _
  rw [after2_5]
  unfold out2_5
  rw [View.canon_unit_zero zero_offsets]
  simp only [View.ld_unit_zero (S := S5000x64) zero_offsets, View.ld_unit_zero (S := S5000x1) zero_offsets, View.ld_unit_zero (S := S1x64) zero_offsets]
  obtain ⟨-, -, -, -, -, -, -, -, -, -, e0, e1⟩ := blockIndices64 t
  have ht : t.val < 10 := Nat.lt_of_lt_of_eq t.isLt N_2
  funext j
  obtain ⟨p, q, rfl⟩ : ∃ (p : Fin 5000) (q : Fin 64), j = ix2 p q := ⟨j 0, j 1, eq_ix2 j⟩
  have hp : p.val < 5000 := p.isLt
  obtain ⟨r, hr⟩ : ∃ r : Fin 50000, r.val = t.val * 5000 + p.val := ⟨⟨t.val * 5000 + p.val, by omega⟩, rfl⟩
  have hemb : ((cfg2.win 5).blk t).view.emb (ix2 p q) = ix2 r q := by
    funext a; apply Fin.ext
    match a with
    | ⟨0, _⟩ => show win2_5.index t (0 : Fin 2) * 5000 + 1 * p.val = r.val; rw [e0, hr]; omega
    | ⟨1, _⟩ => show win2_5.index t (1 : Fin 2) * 64 + 1 * q.val = q.val; rw [e1]; omega
  show k2_pay1 (F := Ideal) (iblk2 V c 0 t) (iblk2 V c 1 t) (iblk2 V c 2 t) (iblk2 V c 3 t) (iblk2 V c 4 t) (ix2 p q)
    = Cert.Spec.finalizeRelu (F := Ideal) (V c (Pipeline.arrRef spec2 0)) ws dinv (V c (Pipeline.arrRef spec2 3)) b (((cfg2.win 5).blk t).view.emb (ix2 p q))
  rw [hemb]
  refine (layerOut64_apply (iblk2 V c 0 t) (iblk2 V c 1 t) (iblk2 V c 2 t) (iblk2 V c 3 t) (iblk2 V c 4 t) p q).trans ?_
  refine Eq.trans ?_ (finalizeRelu_apply (V c (Pipeline.arrRef spec2 0)) (V c (Pipeline.arrRef spec2 3)) ws dinv b r q).symm
  rw [iblk2_0_apply V c t p q r hr, iblk2_3_apply V c t p q r hr, iblk2_1_apply V c ws hws t p 0 r hr,
    iblk2_2_apply V c dinv hdinv t p 0 r hr, iblk2_4_apply V c b hb t 0 q]

/-- An index of the output array is in point t's block iff each coordinate is in the block's range on its axis. -/
theorem mem_rowBlock64 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v97).slice (win2_5.rect t)).set ↔ _
  rw [View.set_slice_whole, Rect.mem_set_unit]
  exact Iff.rfl

/-- Row r of the output lies in the block of point r / 5000: the ten blocks tile the array. -/
theorem rows_covered64 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  have htv : t.val = (i 0).val / 5000 := rfl
  obtain ⟨-, -, -, -, -, -, -, -, -, -, e0, e1⟩ := blockIndices64 t
  refine ⟨t, flush2_5 t, ?_⟩
  rw [mem_rowBlock64]
  intro a
  match a with
  | ⟨0, _⟩ => show win2_5.index t (0 : Fin 2) * 5000 ≤ (i 0).val ∧ (i 0).val < win2_5.index t (0 : Fin 2) * 5000 + 5000; rw [e0, htv]; omega
  | ⟨1, _⟩ => show win2_5.index t (1 : Fin 2) * 64 ≤ (i 1).val ∧ (i 1).val < win2_5.index t (1 : Fin 2) * 64 + 64; rw [e1]; omega

end Region2

/-! ## The second layer (width 40, no lower bound) -/

/-- The second layer's body at (p, q): the same sum, with no lower bound. -/
theorem layerOut40_apply (x0 : Vec Ideal S5000x40 .f32) (x1 x2 : Vec Ideal S5000x1 .f32) (x3 : Vec Ideal S5000x40 .f32) (x4 : Vec Ideal S1x40 .f32)
    (p : Fin 5000) (q : Fin 40) :
    k5_pay1 (F := Ideal) x0 x1 x2 x3 x4 (ix2 p q)
      = x0 (ix2 p q) + ((x1 (ix2 p (0 : Fin 1)) * x2 (ix2 p (0 : Fin 1))) * x2 (ix2 p (0 : Fin 1))) * x3 (ix2 p q) + x4 (ix2 (0 : Fin 1) q) := by
  unfold k5_pay1
  simp only [shapeCast_self]
  rw [addf_apply, addf_apply, mulf_apply]
  rw [broadcastTo_a1_ab_apply, broadcastTo_1b_ab_apply, mulf_apply, mulf_apply]

/-- The second layer's output at (r, q), read through the host's layout operations. -/
theorem finalize40_apply (agg h : (⟨S50000x40, .f32⟩ : BufTy).Contents (Elt Ideal))
    (ws dinv : (⟨S50000, .f32⟩ : BufTy).Contents (Elt Ideal)) (b : (⟨S40, .f32⟩ : BufTy).Contents (Elt Ideal))
    (r : Fin 50000) (q : Fin 40) :
    Cert.Spec.finalize40 (F := Ideal) agg ws dinv h b (ix2 r q)
      = agg (ix2 r q) + ((ws (ix1 r) * dinv (ix1 r)) * dinv (ix1 r)) * h (ix2 r q) + b (ix1 q) := by
  unfold Cert.Spec.finalize40
  rw [addf_apply, addf_apply, mulf_apply]
  rw [bid_a1_ab_apply, bid_a_a1_apply, bid_1b_ab_apply, bid_b_1b_apply, mulf_apply, mulf_apply]

section Region5

variable (V : (c : Dev nD) → (b : Ref sig .tc) → Buf (Elt Ideal) ((c : Thread nD τ).loc b)) (c : Dev nD)

/-- The block index of each window at each of the ten points: (t, 0) for the five row-blocked windows, (0, 0) for the bias. -/
theorem blockIndices40 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Block t of the aggregated messages is rows 5000 t … 5000 t + 4999 of the array. -/
theorem iblk5_0_apply (t : Fin cfg5.N) (p : Fin 5000) (q : Fin 40) (r : Fin 50000) (hr : r.val = t.val * 5000 + p.val) :
    (iblk5 (F := Ideal) V c 0 t : Vec Ideal S5000x40 .f32) (ix2 p q)
      = (V c (Pipeline.arrRef spec5 0) : S50000x40.Idx → Elt Ideal .f32) (ix2 r q) := by
  obtain ⟨e0, e1, -⟩ := blockIndices40 t
  unfold iblk5
  rw [View.read_apply]
  refine congrArg (V c (Pipeline.arrRef spec5 0)) (funext fun a => Fin.ext ?_)
  match a with
  | ⟨0, _⟩ => show win5_0.index t (0 : Fin 2) * 5000 + 1 * p.val = r.val; rw [e0, hr]; omega
  | ⟨1, _⟩ => show win5_0.index t (1 : Fin 2) * 40 + 1 * q.val = q.val; rw [e1]; omega

/-- Block t of the projected features is rows 5000 t … 5000 t + 4999 of the array. -/
theorem iblk5_3_apply (t : Fin cfg5.N) (p : Fin 5000) (q : Fin 40) (r : Fin 50000) (hr : r.val = t.val * 5000 + p.val) :
    (iblk5 (F := Ideal) V c 3 t : Vec Ideal S5000x40 .f32) (ix2 p q)
      = (V c (Pipeline.arrRef spec5 3) : S50000x40.Idx → Elt Ideal .f32) (ix2 r q) := by
  obtain ⟨-, -, -, -, -, -, e0, e1, -⟩ := blockIndices40 t
  unfold iblk5
  rw [View.read_apply]
  refine congrArg (V c (Pipeline.arrRef spec5 3)) (funext fun a => Fin.ext ?_)
  match a with
  | ⟨0, _⟩ => show win5_3.index t (0 : Fin 2) * 5000 + 1 * p.val = r.val; rw [e0, hr]; omega
  | ⟨1, _⟩ => show win5_3.index t (1 : Fin 2) * 40 + 1 * q.val = q.val; rw [e1]; omega

/-- Block t of the self weights' column is entries 5000 t … 5000 t + 4999 of the vector. -/
theorem iblk5_1_apply (ws : (⟨S50000, .f32⟩ : BufTy).Contents (Elt Ideal))
    (hws : V c (Pipeline.arrRef spec5 1) = shapeCast S50000x1 ws shapeCasts_S50000_S50000x1)
    (t : Fin cfg5.N) (p : Fin 5000) (u : Fin 1) (r : Fin 50000) (hr : r.val = t.val * 5000 + p.val) :
    (iblk5 (F := Ideal) V c 1 t : Vec Ideal S5000x1 .f32) (ix2 p u) = ws (ix1 r) := by
  obtain ⟨-, -, e0, e1, -⟩ := blockIndices40 t
  unfold iblk5
  rw [hws]
  show shapeCast S50000x1 ws shapeCasts_S50000_S50000x1 (((cfg5.win 1).blk t).view.emb (ix2 p u)) = ws (ix1 r)
  have hidx : ((cfg5.win 1).blk t).view.emb (ix2 p u) = ix2 r (0 : Fin 1) := by
    funext a; apply Fin.ext
    match a with
    | ⟨0, _⟩ => show win5_1.index t (0 : Fin 2) * 5000 + 1 * p.val = r.val; rw [e0, hr]; omega
    | ⟨1, _⟩ => show win5_1.index t (1 : Fin 2) * 1 + 1 * u.val = 0; rw [e1]; omega
  rw [hidx]
  exact shapeCast_a_a1_apply ws shapeCasts_S50000_S50000x1 r (0 : Fin 1)

/-- Block t of the inverse root degrees' column is entries 5000 t … 5000 t + 4999 of the vector. -/
theorem iblk5_2_apply (dinv : (⟨S50000, .f32⟩ : BufTy).Contents (Elt Ideal))
    (hdinv : V c (Pipeline.arrRef spec5 2) = shapeCast S50000x1 dinv shapeCasts_S50000_S50000x1)
    (t : Fin cfg5.N) (p : Fin 5000) (u : Fin 1) (r : Fin 50000) (hr : r.val = t.val * 5000 + p.val) :
    (iblk5 (F := Ideal) V c 2 t : Vec Ideal S5000x1 .f32) (ix2 p u) = dinv (ix1 r) := by
  obtain ⟨-, -, -, -, e0, e1, -⟩ := blockIndices40 t
  unfold iblk5
  rw [hdinv]
  show shapeCast S50000x1 dinv shapeCasts_S50000_S50000x1 (((cfg5.win 2).blk t).view.emb (ix2 p u)) = dinv (ix1 r)
  have hidx : ((cfg5.win 2).blk t).view.emb (ix2 p u) = ix2 r (0 : Fin 1) := by
    funext a; apply Fin.ext
    match a with
    | ⟨0, _⟩ => show win5_2.index t (0 : Fin 2) * 5000 + 1 * p.val = r.val; rw [e0, hr]; omega
    | ⟨1, _⟩ => show win5_2.index t (1 : Fin 2) * 1 + 1 * u.val = 0; rw [e1]; omega
  rw [hidx]
  exact shapeCast_a_a1_apply dinv shapeCasts_S50000_S50000x1 r (0 : Fin 1)

/-- The bias's one block, at every point, is the bias vector laid as a row. -/
theorem iblk5_4_apply (b : (⟨S40, .f32⟩ : BufTy).Contents (Elt Ideal))
    (hb : V c (Pipeline.arrRef spec5 4) = shapeCast S1x40 b shapeCasts_S40_S1x40)
    (t : Fin cfg5.N) (u : Fin 1) (q : Fin 40) :
    (iblk5 (F := Ideal) V c 4 t : Vec Ideal S1x40 .f32) (ix2 u q) = b (ix1 q) := by
  obtain ⟨-, -, -, -, -, -, -, -, e0, e1, -⟩ := blockIndices40 t
  unfold iblk5
  rw [hb]
  show shapeCast S1x40 b shapeCasts_S40_S1x40 (((cfg5.win 4).blk t).view.emb (ix2 u q)) = b (ix1 q)
  have hidx : ((cfg5.win 4).blk t).view.emb (ix2 u q) = ix2 (0 : Fin 1) q := by
    funext a; apply Fin.ext
    match a with
    | ⟨0, _⟩ => show win5_4.index t (0 : Fin 2) * 1 + 1 * u.val = 0; rw [e0]; omega
    | ⟨1, _⟩ => show win5_4.index t (1 : Fin 2) * 40 + 1 * q.val = q.val; rw [e1]; omega
  rw [hidx]
  exact shapeCast_a_1a_apply b shapeCasts_S40_S1x40 (0 : Fin 1) q

/-- What point t writes back is block t of the second layer's output taken as one function of the whole arrays. -/
theorem writtenBack40 (ws dinv : (⟨S50000, .f32⟩ : BufTy).Contents (Elt Ideal)) (b : (⟨S40, .f32⟩ : BufTy).Contents (Elt Ideal))
    (hws : V c (Pipeline.arrRef spec5 1) = shapeCast S50000x1 ws shapeCasts_S50000_S50000x1)
    (hdinv : V c (Pipeline.arrRef spec5 2) = shapeCast S50000x1 dinv shapeCasts_S50000_S50000x1)
    (hb : V c (Pipeline.arrRef spec5 4) = shapeCast S1x40 b shapeCasts_S40_S1x40) (t : Fin cfg5.N) :
    (dat5 (F := Ideal) V c).flushed 5 t = ((cfg5.win 5).blk t).view.read (Elt Ideal)
      (Cert.Spec.finalize40 (F := Ideal) (V c (Pipeline.arrRef spec5 0)) ws dinv (V c (Pipeline.arrRef spec5 3)) b) := by
  show (cfg5.win 5).cut (grid5.coords t) ((dat5 (F := Ideal) V c).after 5 t) = _
  rw [after5_5]
  unfold out5_5
  rw [View.canon_unit_zero zero_offsets]
  simp only [View.ld_unit_zero (S := S5000x40) zero_offsets, View.ld_unit_zero (S := S5000x1) zero_offsets, View.ld_unit_zero (S := S1x40) zero_offsets]
  obtain ⟨-, -, -, -, -, -, -, -, -, -, e0, e1⟩ := blockIndices40 t
  have ht : t.val < 10 := Nat.lt_of_lt_of_eq t.isLt N_5
  funext j
  obtain ⟨p, q, rfl⟩ : ∃ (p : Fin 5000) (q : Fin 40), j = ix2 p q := ⟨j 0, j 1, eq_ix2 j⟩
  have hp : p.val < 5000 := p.isLt
  obtain ⟨r, hr⟩ : ∃ r : Fin 50000, r.val = t.val * 5000 + p.val := ⟨⟨t.val * 5000 + p.val, by omega⟩, rfl⟩
  have hemb : ((cfg5.win 5).blk t).view.emb (ix2 p q) = ix2 r q := by
    funext a; apply Fin.ext
    match a with
    | ⟨0, _⟩ => show win5_5.index t (0 : Fin 2) * 5000 + 1 * p.val = r.val; rw [e0, hr]; omega
    | ⟨1, _⟩ => show win5_5.index t (1 : Fin 2) * 40 + 1 * q.val = q.val; rw [e1]; omega
  show k5_pay1 (F := Ideal) (iblk5 V c 0 t) (iblk5 V c 1 t) (iblk5 V c 2 t) (iblk5 V c 3 t) (iblk5 V c 4 t) (ix2 p q)
    = Cert.Spec.finalize40 (F := Ideal) (V c (Pipeline.arrRef spec5 0)) ws dinv (V c (Pipeline.arrRef spec5 3)) b (((cfg5.win 5).blk t).view.emb (ix2 p q))
  rw [hemb]
  refine (layerOut40_apply (iblk5 V c 0 t) (iblk5 V c 1 t) (iblk5 V c 2 t) (iblk5 V c 3 t) (iblk5 V c 4 t) p q).trans ?_
  refine Eq.trans ?_ (finalize40_apply (V c (Pipeline.arrRef spec5 0)) (V c (Pipeline.arrRef spec5 3)) ws dinv b r q).symm
  rw [iblk5_0_apply V c t p q r hr, iblk5_3_apply V c t p q r hr, iblk5_1_apply V c ws hws t p 0 r hr,
    iblk5_2_apply V c dinv hdinv t p 0 r hr, iblk5_4_apply V c b hb t 0 q]

/-- An index of the output array is in point t's block iff each coordinate is in the block's range on its axis. -/
theorem mem_rowBlock40 (t : Fin cfg5.N) (i : S50000x40.Idx) :
    i ∈ ((cfg5.win 5).blk t).view.set ↔ ∀ a : Fin 2, win5_5.index t a * S5000x40.size a ≤ (i a).val ∧ (i a).val < win5_5.index t a * S5000x40.size a + S5000x40.size a := by
  show i ∈ ((View.whole main_v191).slice (win5_5.rect t)).set ↔ _
  rw [View.set_slice_whole, Rect.mem_set_unit]
  exact Iff.rfl

/-- Row r of the output lies in the block of point r / 5000: the ten blocks tile the array. -/
theorem rows_covered40 (i : S50000x40.Idx) :
    ∃ t : Fin cfg5.N, (cfg5.win 5).flush t = true ∧ i ∈ ((cfg5.win 5).blk t).view.set := by
  have hi0 : (i 0).val < 50000 := (i 0).isLt
  have hi1 : (i 1).val < 40 := (i 1).isLt
  have hN : cfg5.N = 10 := N_5
  let t : Fin cfg5.N := ⟨(i 0).val / 5000, by rw [hN]; omega⟩
  have htv : t.val = (i 0).val / 5000 := rfl
  obtain ⟨-, -, -, -, -, -, -, -, -, -, e0, e1⟩ := blockIndices40 t
  refine ⟨t, flush5_5 t, ?_⟩
  rw [mem_rowBlock40]
  intro a
  match a with
  | ⟨0, _⟩ => show win5_5.index t (0 : Fin 2) * 5000 ≤ (i 0).val ∧ (i 0).val < win5_5.index t (0 : Fin 2) * 5000 + 5000; rw [e0, htv]; omega
  | ⟨1, _⟩ => show win5_5.index t (1 : Fin 2) * 40 ≤ (i 1).val ∧ (i 1).val < win5_5.index t (1 : Fin 2) * 40 + 40; rw [e1]; omega

end Region5

end Finalize

/-- The first layer's output, bounded below by zero. -/
theorem region2 (V : (c : Dev nD) → (b : Ref sig .tc) → Buf (Elt Ideal) ((c : Thread nD τ).loc b)) (c : Dev nD)
    (ws dinv : (⟨S50000, .f32⟩ : BufTy).Contents (Elt Ideal)) (b : (⟨S64, .f32⟩ : BufTy).Contents (Elt Ideal))
    (hws : V c (Pipeline.arrRef spec2 1) = shapeCast S50000x1 ws shapeCasts_S50000_S50000x1)
    (hdinv : V c (Pipeline.arrRef spec2 2) = shapeCast S50000x1 dinv shapeCasts_S50000_S50000x1)
    (hb : V c (Pipeline.arrRef spec2 4) = shapeCast S1x64 b shapeCasts_S64_S1x64) :
    (dat2 (F := Ideal) V c).arrAt 5 cfg2.N
      = Cert.Spec.finalizeRelu (F := Ideal) (V c (Pipeline.arrRef spec2 0)) ws dinv (V c (Pipeline.arrRef spec2 3)) b :=
  (dat2 (F := Ideal) V c).arrAt_eq_of_cover 5 _ (fun t _ => Finalize.writtenBack64 V c ws dinv b hws hdinv hb t) Finalize.rows_covered64

/-- The second layer's output. -/
theorem region5 (V : (c : Dev nD) → (b : Ref sig .tc) → Buf (Elt Ideal) ((c : Thread nD τ).loc b)) (c : Dev nD)
    (ws dinv : (⟨S50000, .f32⟩ : BufTy).Contents (Elt Ideal)) (b : (⟨S40, .f32⟩ : BufTy).Contents (Elt Ideal))
    (hws : V c (Pipeline.arrRef spec5 1) = shapeCast S50000x1 ws shapeCasts_S50000_S50000x1)
    (hdinv : V c (Pipeline.arrRef spec5 2) = shapeCast S50000x1 dinv shapeCasts_S50000_S50000x1)
    (hb : V c (Pipeline.arrRef spec5 4) = shapeCast S1x40 b shapeCasts_S40_S1x40) :
    (dat5 (F := Ideal) V c).arrAt 5 cfg5.N
      = Cert.Spec.finalize40 (F := Ideal) (V c (Pipeline.arrRef spec5 0)) ws dinv (V c (Pipeline.arrRef spec5 3)) b :=
  (dat5 (F := Ideal) V c).arrAt_eq_of_cover 5 _ (fun t _ => Finalize.writtenBack40 V c ws dinv b hws hdinv hb t) Finalize.rows_covered40

end Cert.KernelIdeal.RegionValue

end
-- ==== Proof.RegionLogSoftmax.lean ====
/-
  The row-wise log-softmax, ten row blocks at a time: after the pipelined call the output array holds the log-softmax of every row of the input.

  Entry (r, q) of the result depends on row r of the input only: it is (x(r,q) − M) − log Σ_k exp (x(r,k) − M), with M the
  largest of the row's forty entries, taken from −∞ up. The body computes this on each block of five thousand rows; the
  reference computes it on the whole array, except that it takes once more the larger of −∞ and M and starts its sum from
  zero. The fold that gives M starts at −∞, so M is not below it and the larger of the two is M; and 0 + s = s. Row p of the
  block at grid point t is row 5000·t + p of the array, so what point t writes back is block t of the reference's result, and
  the ten blocks cover the fifty thousand rows.
-/
import proofs.«408244_j28587302322281_3_alg».proof.Proof.Gen.KernelIdeal.Frame
import proofs.«408244_j28587302322281_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

namespace LogSoftmax

/-! ## The row function -/

/-- The largest entry of a row of forty, taken from the starting value `b` up. -/
def rowMax (b : EReal) (x : Fin 40 → EReal) : EReal := (Finset.univ : Finset (Fin 40)).fold max b x

/-- Entry `q` of the log-softmax of one row: the entry shifted by the row's maximum, minus the logarithm of the sum of
    the exponentials of the shifted row. -/
def lsmRow (b : EReal) (x : Fin 40 → EReal) (q : Fin 40) : EReal :=
  (x q - rowMax b x) - Ideal.log (∑ k : Fin 40, Ideal.exp (x k - rowMax b x))

/-- The starting value is below the fold, so taking the larger of the two changes nothing. -/
theorem max_rowMax (b : EReal) (x : Fin 40 → EReal) : max b (rowMax b x) = rowMax b x :=
  max_eq_right ((Finset.le_fold_max b).mpr (Or.inl le_rfl))

/-! ## Indices and layout operations at an entry -/

/-- Inserting column `k` into the one-coordinate index `r` gives the entry `(r, k)`. -/
theorem lift_row {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A vector of `n` entries cast to a column reads its entry `r` at `(r, u)`. -/
theorem shapeCast_col_apply {α : Type} {n : Nat} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu]; omega)

/-- A column spread over `m` columns reads its entry `r` at `(r, q)`. -/
theorem broadcastTo_col_apply {α : Type} {n m : Nat} (x : (⟨2, ![n, 1]⟩ : Shape).Idx → α) (h : (⟨2, ![n, 1]⟩ : Shape).Broadcasts ⟨2, ![n, m]⟩)
    (hn : n ≠ 1) (r : Fin n) (q : Fin m) : broadcastTo ⟨2, ![n, m]⟩ x h (ix2 r q) = x (ix2 r (0 : Fin 1)) := by
  refine broadcastTo_apply x h (ix2 r q) (ix2 r (0 : Fin 1)) fun ax => ?_
  match ax with
  | ⟨0, _⟩ =>
    show r.val = if n = 1 then 0 else r.val
    rw [if_neg hn]
  | ⟨1, _⟩ => rfl

/-- The host's spreading of a vector of `n` entries into a column reads entry `r` at `(r, u)`. -/
theorem broadcastInDim_col_apply {α : Type} {n : Nat} (x : (⟨1, ![n]⟩ : Shape).Idx → α)
    (h : (⟨1, ![n]⟩ : Shape).BroadcastsInDim ⟨2, ![n, 1]⟩ ![0]) (hn : n ≠ 1) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    rw [if_neg hn]

/-- The host's spreading of a column over `m` columns reads entry `r` at `(r, q)`. -/
theorem broadcastInDim_cols_apply {α : Type} {n m : Nat} (x : (⟨2, ![n, 1]⟩ : Shape).Idx → α)
    (h : (⟨2, ![n, 1]⟩ : Shape).BroadcastsInDim ⟨2, ![n, m]⟩ ![0, 1]) (hn : n ≠ 1) (r : Fin n) (q : Fin m) :
    broadcastInDim ⟨2, ![n, m]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    rw [if_neg hn]
  | ⟨1, _⟩ => rfl

/-! ## The reductions along a row -/

/-- The kernel's maximum along axis 1, at row `r`: the fold of `max` over the row's forty entries. -/
theorem kmax_apply {n : Nat} (src : FVec Ideal ⟨2, ![n, 40]⟩ .f32) (acc : BitVec 32)
    (h : (⟨2, ![n, 40]⟩ : Shape).Reduces [1] ⟨1, ![n]⟩) (hφ : FKind.Formats .f32) (hacc : acc = FKind.maximumf.neutral .f32 hφ) (r : Fin n) :
    multiReduction .maximumf [1] ⟨1, ![n]⟩ src acc h hφ hacc (ix1 r) = rowMax (Ideal.ofBits .f32 acc) (fun k => src (ix2 r k)) := by
  refine (Ideal.multiReduction_maximumf_single src acc h hφ hacc (ix1 r)).trans ?_
  have e : (src ∘ h.lift (ix1 r)) = fun k : Fin 40 => src (ix2 r k) := funext fun k => congrArg src (lift_row h r k)
  rw [e]; rfl

/-- The kernel's sum along axis 1, at row `r`: the sum of the row's forty entries. -/
theorem ksum_apply {n : Nat} (src : FVec Ideal ⟨2, ![n, 40]⟩ .f32) (acc : BitVec 32)
    (h : (⟨2, ![n, 40]⟩ : Shape).Reduces [1] ⟨1, ![n]⟩) (hφ : FKind.Formats .f32) (hacc : acc = FKind.add.neutral .f32 hφ) (r : Fin n) :
    multiReduction .add [1] ⟨1, ![n]⟩ src acc h hφ hacc (ix1 r) = ∑ k : Fin 40, src (ix2 r k) := by
  refine (Ideal.multiReduction_add_single src acc h hφ hacc (ix1 r)).trans ?_
  exact Finset.sum_congr rfl fun k _ => congrArg src (lift_row h r k)

/-- The host's maximum along axis 1, at row `r`: the same fold, from the starting array's one entry. -/
theorem hmax_apply {n : Nat} (x : FVec Ideal ⟨2, ![n, 40]⟩ .f32) (init : (⟨0, ![]⟩ : Shape).Idx → Ideal .f32)
    (h' : (⟨2, ![n, 40]⟩ : Shape).ReducesTo [1] ⟨1, ![n]⟩) (h : (⟨2, ![n, 40]⟩ : Shape).Reduces [1] ⟨1, ![n]⟩)
    (hu : 0 < (⟨0, ![]⟩ : Shape).numel) (r : Fin n) :
    Host.reduce (FloatOps.maximumf (F := Ideal) (φ := .f32)) x init h' hu (ix1 r) = rowMax (init ix0) (fun k => x (ix2 r k)) := by
  refine (Host.reduce_eq_fold_single _ x init h' h hu (ix1 r)).trans ?_
  have e : (x ∘ h.lift (ix1 r)) = fun k : Fin 40 => x (ix2 r k) := funext fun k => congrArg x (lift_row h r k)
  have e0 : Shape.Idx.first hu = ix0 := funext fun a => a.elim0
  rw [e, e0]; rfl

/-- The host's sum along axis 1, at row `r`: the starting array's one entry plus the sum of the row's forty entries. -/
theorem hsum_apply {n : Nat} (x : FVec Ideal ⟨2, ![n, 40]⟩ .f32) (init : (⟨0, ![]⟩ : Shape).Idx → Ideal .f32)
    (h' : (⟨2, ![n, 40]⟩ : Shape).ReducesTo [1] ⟨1, ![n]⟩) (h : (⟨2, ![n, 40]⟩ : Shape).Reduces [1] ⟨1, ![n]⟩)
    (hu : 0 < (⟨0, ![]⟩ : Shape).numel) (r : Fin n) :
    Host.reduceAdd x init h' hu (ix1 r) = init ix0 + ∑ k : Fin 40, x (ix2 r k) := by
  refine (hostReduceAdd_apply x init h' hu (ix1 r)).trans ?_
  refine (Ideal.hostReduceAdd_single h' h x _ (ix1 r)).trans ?_
  have e0 : Shape.Idx.first hu = ix0 := funext fun a => a.elim0
  rw [e0]
  exact congrArg (init ix0 + ·) (Finset.sum_congr rfl fun k _ => congrArg x (lift_row h r k))

/-! ## Pointwise operations at an entry -/

theorem log_apply {s : Shape} (x : FVec Ideal s .f32) (i : s.Idx) : log x i = Ideal.log (x i) := rfl
theorem exp_apply {s : Shape} (x : FVec Ideal s .f32) (i : s.Idx) : exp x i = Ideal.exp (x i) := rfl
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-! ## The kernel's payload at an entry -/

/-- A block minus a per-row vector spread over the rows, at entry `(p, k)`: the entry minus the vector's entry `p`. -/
theorem shifted_apply {n : Nat} (v : FVec Ideal ⟨2, ![n, 40]⟩ .f32) (m : FVec Ideal ⟨1, ![n]⟩ .f32) (M : EReal)
    (h1 : (⟨1, ![n]⟩ : Shape).ShapeCasts ⟨2, ![n, 1]⟩) (h2 : (⟨2, ![n, 1]⟩ : Shape).Broadcasts ⟨2, ![n, 40]⟩) (hn : n ≠ 1)
    (p : Fin n) (hm : m (ix1 p) = M) (k : Fin 40) :
    subf v (broadcastTo ⟨2, ![n, 40]⟩ (shapeCast ⟨2, ![n, 1]⟩ m h1) h2) (ix2 p k) = v (ix2 p k) - M := by
  refine (subf_apply _ _ _).trans (congrArg (v (ix2 p k) - ·) ?_)
  exact ((broadcastTo_col_apply _ h2 hn p k).trans (shapeCast_col_apply m h1 p 0)).trans hm

/-- The value the body stores at entry `(p, q)` of its block is the log-softmax of the block's row `p` at `q`. -/
theorem pay_apply (v0 : Vec Ideal S5000x40 .f32) (p : Fin 5000) (q : Fin 40) :
    k6_pay1 (F := Ideal) v0 (ix2 p q) = lsmRow (Ideal.ofBits .f32 0xFF800000#32) (fun k => v0 (ix2 p k)) q := by
  unfold k6_pay1
  dsimp only
  simp only [shapeCast_self]
  have hM := kmax_apply v0 0xFF800000#32 reduces_S5000x40_S5000 (.inl rfl) rfl p
  refine (subf_apply _ _ _).trans ?_
  unfold lsmRow
  refine congrArg₂ (· - ·) (shifted_apply _ _ _ _ _ (by decide) p hM q) ?_
  refine (broadcastTo_col_apply _ _ (by decide) p q).trans ?_
  refine (log_apply _ _).trans (congrArg Ideal.log ?_)
  refine (shapeCast_col_apply _ _ p 0).trans ?_
  refine (ksum_apply _ _ _ _ _ p).trans ?_
  exact Finset.sum_congr rfl fun k _ => (exp_apply _ _).trans (congrArg Ideal.exp (shifted_apply _ _ _ _ _ (by decide) p hM k))

/-! ## The reference function at an entry -/

theorem reduces_rows : (⟨2, ![50000, 40]⟩ : Shape).Reduces [1] ⟨1, ![50000]⟩ := by decide

/-- The host's row maximum (the larger of the starting value and the fold from it) at row `r`. -/
theorem hrowmax_apply (x : FVec Ideal ⟨2, ![50000, 40]⟩ .f32) (hb : (⟨0, ![]⟩ : Shape).BroadcastsInDim ⟨1, ![50000]⟩ ![])
    (h' : (⟨2, ![50000, 40]⟩ : Shape).ReducesTo [1] ⟨1, ![50000]⟩) (hu : 0 < (⟨0, ![]⟩ : Shape).numel) (r : Fin 50000) :
    maximumf (broadcastInDim ⟨1, ![50000]⟩ ![] hb (constant (F := Ideal) ⟨0, ![]⟩ .f32 0xFF800000#32))
        (Host.reduce (FloatOps.maximumf (F := Ideal) (φ := .f32)) x (constant (F := Ideal) ⟨0, ![]⟩ .f32 0xFF800000#32) h' hu) (ix1 r)
      = rowMax (Ideal.ofBits .f32 0xFF800000#32) (fun k => x (ix2 r k)) := by
  refine (maximumf_apply _ _ _).trans ?_
  refine (congrArg₂ max (broadcastInDim_scalar_apply hb _ (ix1 r)) (hmax_apply x _ h' reduces_rows hu r)).trans ?_
  exact max_rowMax _ _

/-- The array minus a per-row vector spread over the rows by the host, at entry `(r, k)`. -/
theorem hshifted_apply {n : Nat} (x : FVec Ideal ⟨2, ![n, 40]⟩ .f32) (m : FVec Ideal ⟨1, ![n]⟩ .f32) (M : EReal)
    (h1 : (⟨1, ![n]⟩ : Shape).BroadcastsInDim ⟨2, ![n, 1]⟩ ![0]) (h2 : (⟨2, ![n, 1]⟩ : Shape).BroadcastsInDim ⟨2, ![n, 40]⟩ ![0, 1])
    (hn : n ≠ 1) (r : Fin n) (hm : m (ix1 r) = M) (k : Fin 40) :
    subf x (broadcastInDim ⟨2, ![n, 40]⟩ ![0, 1] h2 (broadcastInDim ⟨2, ![n, 1]⟩ ![0] h1 m)) (ix2 r k) = x (ix2 r k) - M := by
  refine (subf_apply _ _ _).trans (congrArg (x (ix2 r k) - ·) ?_)
  exact ((broadcastInDim_cols_apply _ h2 hn r k).trans (broadcastInDim_col_apply m h1 hn r 0)).trans hm

/-- The reference's log-softmax at entry `(r, q)` is the log-softmax of the array's row `r` at `q`. -/
theorem spec_apply (x : Vec Ideal S50000x40 .f32) (r : Fin 50000) (q : Fin 40) :
    Cert.Spec.logSoftmax (F := Ideal) x (ix2 r q) = lsmRow (Ideal.ofBits .f32 0xFF800000#32) (fun k => x (ix2 r k)) q := by
  unfold Cert.Spec.logSoftmax
  dsimp only
  have hM := hrowmax_apply x ReferenceIdeal.Gen.bcast_S_S50000 ReferenceIdeal.Gen.reducesTo_S50000x40_S50000_d1 ReferenceIdeal.Gen.h_S_ r
  have hz : (constant (F := Ideal) ReferenceIdeal.S_ .f32 0x00000000#32) ix0 = 0 := Ideal.ofBits_zero_f32
  refine (subf_apply _ _ _).trans ?_
  unfold lsmRow
  refine congrArg₂ (· - ·) (hshifted_apply _ _ _ _ _ (by decide) r hM q) ?_
  refine (broadcastInDim_cols_apply _ _ (by decide) r q).trans ?_
  refine (hostLog_apply _ _).trans (congrArg Ideal.log ?_)
  refine (broadcastInDim_col_apply _ _ (by decide) r 0).trans ?_
  refine (hsum_apply _ _ _ reduces_rows _ r).trans ?_
  refine (congrArg₂ (· + ·) hz (Finset.sum_congr rfl fun k _ =>
    (hostExp_apply _ _).trans (congrArg Ideal.exp (hshifted_apply _ _ _ _ _ (by decide) r hM k)))).trans ?_
  exact zero_add _

/-! ## From blocks to the array -/

theorem zero_off : (![0, 0] : Fin 2 → Nat) = fun _ => 0 := funext fun a => by fin_cases a <;> rfl

/-- The index maps over the ten grid points: the input's and the output's blocks sit at the same place, block row `t`
    and block column `0`. -/
theorem block_indices : ∀ t : Fin cfg6.N, win6_0.index t (0 : Fin 2) = win6_1.index t (0 : Fin 2)
    ∧ win6_0.index t (1 : Fin 2) = win6_1.index t (1 : Fin 2)
    ∧ win6_1.index t (1 : Fin 2) = 0
    ∧ win6_1.index t (0 : Fin 2) = t.val :=
  (by decide +kernel : ∀ t : Fin grid6.N, _)

/-- A block of five thousand rows that reads the array `A` at rows `tt * 5000 + p`: the body's payload on the block is the
    reference's log-softmax of `A` read at the same places, because an entry of either depends on its own row only. -/
theorem block_eq (A : Vec Ideal S50000x40 .f32) (x0 : Vec Ideal S5000x40 .f32) (e : S5000x40.Idx → S50000x40.Idx) (tt : Nat)
    (he0 : ∀ j, (e j 0).val = tt * 5000 + (j 0).val) (he1 : ∀ j, (e j 1).val = (j 1).val)
    (hx : ∀ j, x0 j = A (e j)) (j : S5000x40.Idx) :
    k6_pay1 (F := Ideal) x0 j = Cert.Spec.logSoftmax (F := Ideal) A (e j) := by
  obtain ⟨p, q, rfl⟩ : ∃ (p : Fin 5000) (q : Fin 40), j = ix2 p q := ⟨j 0, j 1, eq_ix2 j⟩
  obtain ⟨r, q', hrq⟩ : ∃ (r : Fin 50000) (q' : Fin 40), e (ix2 p q) = ix2 r q' := ⟨e (ix2 p q) 0, e (ix2 p q) 1, eq_ix2 _⟩
  have hr : r.val = tt * 5000 + p.val := by have h := he0 (ix2 p q); rw [hrq] at h; exact h
  have hq : q' = q := Fin.ext (by have h := he1 (ix2 p q); rw [hrq] at h; exact h)
  subst hq
  rw [hrq, pay_apply, spec_apply]
  refine congrArg (fun f => lsmRow _ f q') (funext fun k => ?_)
  rw [hx]
  refine congrArg A (Shape.idx_ext₂ ?_ ?_)
  · show (e (ix2 p k) 0).val = r.val
    rw [he0, hr]
  · show (e (ix2 p k) 1).val = k.val
    rw [he1]

/-- What point `t` writes back is block `t` of the reference's log-softmax of the input array. -/
theorem flushed_eq (V : (c : Dev nD) → (b : Ref sig .tc) → Buf (Elt Ideal) ((c : Thread nD τ).loc b)) (c : Dev nD) (t : Fin cfg6.N) :
    (dat6 (F := Ideal) V c).flushed 1 t
      = ((cfg6.win 1).blk t).view.read (Elt Ideal) (Cert.Spec.logSoftmax (F := Ideal) (V c (Pipeline.arrRef spec6 0))) := by
  show (cfg6.win 1).cut (grid6.coords t) ((dat6 (F := Ideal) V c).after 1 t) = _
  rw [after6_1]
  unfold out6_1
  rw [View.canon_unit_zero zero_off]
  simp only [View.ld_unit_zero (S := S5000x40) zero_off]
  obtain ⟨e0, e1, e2, e3⟩ := block_indices t
  have he0 : ∀ j : S5000x40.Idx, ((((cfg6.win 1).blk t).view.emb j) 0).val = win6_1.index t (0 : Fin 2) * 5000 + (j 0).val := fun j => by
    show win6_1.index t (0 : Fin 2) * 5000 + 1 * (j 0).val = _
    omega
  have he1 : ∀ j : S5000x40.Idx, ((((cfg6.win 1).blk t).view.emb j) 1).val = (j 1).val := fun j => by
    show win6_1.index t (1 : Fin 2) * 40 + 1 * (j 1).val = _
    rw [e2]; omega
  have hx : ∀ j : S5000x40.Idx, iblk6 V c 0 t j = V c (Pipeline.arrRef spec6 0) (((cfg6.win 1).blk t).view.emb j) := fun j => by
    show V c (Pipeline.arrRef spec6 0) (((cfg6.win 0).blk t).view.emb j) = _
    refine congrArg _ ?_
    funext a; apply Fin.ext
    match a with
    | ⟨0, _⟩ => show win6_0.index t (0 : Fin 2) * 5000 + 1 * (j 0).val = win6_1.index t (0 : Fin 2) * 5000 + 1 * (j 0).val; rw [e0]
    | ⟨1, _⟩ => show win6_0.index t (1 : Fin 2) * 40 + 1 * (j 1).val = win6_1.index t (1 : Fin 2) * 40 + 1 * (j 1).val; rw [e1]
  funext j
  exact block_eq (V c (Pipeline.arrRef spec6 0)) (iblk6 V c 0 t) (((cfg6.win 1).blk t).view.emb) (win6_1.index t (0 : Fin 2)) he0 he1 hx j

/-- An entry of the array is in point `t`'s block when each coordinate is in the block's range on its axis. -/
theorem mem_blk (t : Fin cfg6.N) (i : S50000x40.Idx) :
    i ∈ ((cfg6.win 1).blk t).view.set ↔ ∀ a : Fin 2, win6_1.index t a * S5000x40.size a ≤ (i a).val ∧ (i a).val < win6_1.index t a * S5000x40.size a + S5000x40.size a := by
  show i ∈ ((View.whole main_v192).slice (win6_1.rect t)).set ↔ _
  rw [View.set_slice_whole, Rect.mem_set_unit]
  exact Iff.rfl

/-- Row `r` of the array lies in the block of point `r / 5000`, and every point writes back: the ten blocks cover the array. -/
theorem covered (i : S50000x40.Idx) : ∃ t : Fin cfg6.N, (cfg6.win 1).flush t = true ∧ i ∈ ((cfg6.win 1).blk t).view.set := by
  have hi0 : (i 0).val < 50000 := (i 0).isLt
  have hi1 : (i 1).val < 40 := (i 1).isLt
  have hN : grid6.N = 10 := N_6
  obtain ⟨t, ht⟩ : ∃ t : Fin cfg6.N, t.val = (i 0).val / 5000 := ⟨⟨(i 0).val / 5000, by show _ < grid6.N; rw [hN]; omega⟩, rfl⟩
  obtain ⟨e0, e1, e2, e3⟩ := block_indices t
  refine ⟨t, flush6_1 t, ?_⟩
  rw [mem_blk]
  intro a
  match a with
  | ⟨0, _⟩ =>
    show win6_1.index t (0 : Fin 2) * 5000 ≤ (i 0).val ∧ (i 0).val < win6_1.index t (0 : Fin 2) * 5000 + 5000
    rw [e3, ht]; omega
  | ⟨1, _⟩ =>
    show win6_1.index t (1 : Fin 2) * 40 ≤ (i 1).val ∧ (i 1).val < win6_1.index t (1 : Fin 2) * 40 + 40
    rw [e2]; omega

end LogSoftmax

/-- The closing log-softmax. -/
theorem region6 (V : (c : Dev nD) → (b : Ref sig .tc) → Buf (Elt Ideal) ((c : Thread nD τ).loc b)) (c : Dev nD) :
    (dat6 (F := Ideal) V c).arrAt 1 cfg6.N = Cert.Spec.logSoftmax (F := Ideal) (V c (Pipeline.arrRef spec6 0)) :=
  (dat6 (F := Ideal) V c).arrAt_eq_of_cover 1 (Cert.Spec.logSoftmax (F := Ideal) (V c (Pipeline.arrRef spec6 0)))
    (fun t _ => LogSoftmax.flushed_eq V c t) LogSoftmax.covered

end Cert.KernelIdeal.RegionValue

end
-- ==== Proof.lean ====
/-
  A two-layer graph network with cosine-similarity attention (50000 nodes, 800000 edges): the kernel program runs its dense,
  node-tiled stages — row normalisation, the two feature projections, the two layer outputs, the closing log-softmax — as seven
  pipelined calls over ten blocks of 5000 rows each, and everything per edge (gathers, the thresholded similarities, the
  segment sums, the exponentials) as host operations between them; the reference is the same computation as one straight
  line of host operations.

  Over the extended reals the two are the same function of the arguments, and the proof follows the data flow. Each
  pipelined call leaves ONE whole-array function of the arrays it reads (Cert.Spec: every output row depends only on the same
  row of the inputs and on the small weight and bias arrays, so the ten row blocks tile it; rounding to bf16 before the products
  is the identity, and a matrix product into a zero accumulator is the plain sum of products). Every buffer of either program
  is written once, so at the end each holds its operation's function of what the buffers it read hold at the end: one equation
  per operation on each side. The host operations between the calls are, operation for operation, the reference's own, and the
  calls stand where the reference has the dense stages; so, buffer by buffer from the arguments on, the kernel program's
  buffers end holding what the reference's corresponding buffers hold, up to the result. No algebraic law and no finiteness of
  the inputs is used.

  The three frames: the kernel programs' are the generated ones; the reference's is its run with the values dropped (the
  arguments are never written). The idealization rewrote nothing, so there is nothing to preserve.
-/
import proofs.«408244_j28587302322281_3_alg».proof.Defs
import proofs.«408244_j28587302322281_3_alg».proof.Proof.Gen.Kernel
import proofs.«408244_j28587302322281_3_alg».proof.Proof.Gen.Kernel.Frame
import proofs.«408244_j28587302322281_3_alg».proof.Proof.Gen.KernelIdeal
import proofs.«408244_j28587302322281_3_alg».proof.Proof.Gen.KernelIdeal.Frame
import proofs.«408244_j28587302322281_3_alg».proof.Proof.Gen.ReferenceIdeal
import proofs.«408244_j28587302322281_3_alg».proof.Proof.Gen.Pre_finite_inputs
import proofs.«408244_j28587302322281_3_alg».proof.Proof.KRun
import proofs.«408244_j28587302322281_3_alg».proof.Proof.RefRun
import proofs.«408244_j28587302322281_3_alg».proof.Proof.RSsa
import proofs.«408244_j28587302322281_3_alg».proof.Proof.BridgeB
import Idealize.ShloMosaic.Adequacy
import Idealize.ShloMosaic.Init

set_option maxRecDepth 65536

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Ssa.r_arg _ c Cert.ReferenceIdeal.main_arg0 (by decide)),
     (h c Cert.ReferenceIdeal.main_arg1).trans (Cert.ReferenceIdeal.Ssa.r_arg _ c Cert.ReferenceIdeal.main_arg1 (by decide)),
     (h c Cert.ReferenceIdeal.main_arg2).trans (Cert.ReferenceIdeal.Ssa.r_arg _ c Cert.ReferenceIdeal.main_arg2 (by decide)),
     (h c Cert.ReferenceIdeal.main_arg3).trans (Cert.ReferenceIdeal.Ssa.r_arg _ c Cert.ReferenceIdeal.main_arg3 (by decide)),
     (h c Cert.ReferenceIdeal.main_arg4).trans (Cert.ReferenceIdeal.Ssa.r_arg _ c Cert.ReferenceIdeal.main_arg4 (by decide)),
     (h c Cert.ReferenceIdeal.main_arg5).trans (Cert.ReferenceIdeal.Ssa.r_arg _ c Cert.ReferenceIdeal.main_arg5 (by decide))⟩)
    (Cert.ReferenceIdeal.RunP.run (F := Ideal) m ρ)

/-- The idealization rewrote no operation. -/
theorem preserves : Cert.preserves_Kernel_KernelIdeal := trivial

/-- From memories that agree on the arguments both programs run, and the kernel program's result array — what the closing
    log-softmax call leaves — is the reference's result buffer, entry by entry. -/
theorem algebraic : Cert.algebraic_KernelIdeal_ReferenceIdeal := by
  intro m ρ m' ρ' _ hagree
  refine ⟨fun c => Cert.KernelIdeal.Gen.W24 (F := Ideal) m ρ c (Proc.devRef .tc Cert.KernelIdeal.main_v192), Cert.KernelIdeal.RunP.run (F := Ideal) m ρ, ?_⟩
  refine (θ_run Cert.ReferenceIdeal.defs _ _).mono (fun r h c =>
    ⟨(h c Cert.ReferenceIdeal.main_v217).trans (Cert.Bridge.result_eq (m := m) (c := c) (m' := m') ρ (hagree c)).symm,
     (h c Cert.ReferenceIdeal.main_arg0).trans (Cert.ReferenceIdeal.Ssa.r_arg _ c Cert.ReferenceIdeal.main_arg0 (by decide)),
     (h c Cert.ReferenceIdeal.main_arg1).trans (Cert.ReferenceIdeal.Ssa.r_arg _ c Cert.ReferenceIdeal.main_arg1 (by decide)),
     (h c Cert.ReferenceIdeal.main_arg2).trans (Cert.ReferenceIdeal.Ssa.r_arg _ c Cert.ReferenceIdeal.main_arg2 (by decide)),
     (h c Cert.ReferenceIdeal.main_arg3).trans (Cert.ReferenceIdeal.Ssa.r_arg _ c Cert.ReferenceIdeal.main_arg3 (by decide)),
     (h c Cert.ReferenceIdeal.main_arg4).trans (Cert.ReferenceIdeal.Ssa.r_arg _ c Cert.ReferenceIdeal.main_arg4 (by decide)),
     (h c Cert.ReferenceIdeal.main_arg5).trans (Cert.ReferenceIdeal.Ssa.r_arg _ c Cert.ReferenceIdeal.main_arg5 (by decide))⟩)
    (Cert.ReferenceIdeal.RunP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
